-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S64 : Shape := ⟨1, ![64]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg2 : IVec S64 32) (main_v15 : IVec S_ 1) (main_c_5 : IVec S_ 32) : IVec S_ 1 :=
  let main_v16 : IVec S64 32 := broadcastInDim S64 ![] bcast_S_S64 main_c_5
  let main_v17 : IVec S64 1 := cmpi .sge main_arg2 main_v16
  let main_c_6 : IVec S_ 32 := constantI S_ 32 8#32
  let main_v18 : IVec S64 32 := broadcastInDim S64 ![] bcast_S_S64 main_c_6
  let main_v19 : IVec S64 1 := cmpi .slt main_arg2 main_v18
  let main_v20 : IVec S64 1 := andi main_v17 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v15 main_v21
  main_v22

def fn {F : FTy → Type} [FloatOps F] (main_arg0 : FVec F S524288x64 .f32) (main_arg1 : FVec F S524288x64 .f32) (main_arg2 : IVec S64 32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_cst_2 : FVec F S_ .f32 := constant S_ .f32 0x00000000#32
  let main_v9 : FVec F S524288x64 .f32 := broadcastInDim S524288x64 ![] bcast_S_S524288x64 main_cst_2
  let main_v10 : IVec S524288x64 1 := cmpf .oeq main_arg1 main_v9
  let main_cst_3 : FVec F S_ .f32 := constant S_ .f32 0x3F800000#32
  let main_v11 : FVec F S524288x64 .f32 := broadcastInDim S524288x64 ![] bcast_S_S524288x64 main_cst_3
  let main_v12 : IVec S524288x64 1 := cmpf .oeq main_arg1 main_v11
  let main_v13 : IVec S524288x64 1 := ori main_v10 main_v12
  let main_c_4 : IVec S_ 1 := constantI S_ 1 1#1
  let main_v14 : IVec S_ 1 := (fun x v => Host.reduce IntOp.andi x v reducesTo_S524288x64_S_d0_1 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S524288x64 : Shape := ⟨2, ![524288, 64]⟩
abbrev S64 : Shape := ⟨1, ![64]⟩
abbrev S262144x128 : Shape := ⟨2, ![262144, 128]⟩
abbrev S8 : Shape := ⟨1, ![8]⟩
abbrev S64x1 : Shape := ⟨2, ![64, 1]⟩
abbrev S1x8 : Shape := ⟨2, ![1, 8]⟩
abbrev S64x8 : Shape := ⟨2, ![64, 8]⟩
abbrev S8x64 : Shape := ⟨2, ![8, 64]⟩
abbrev S64x64 : Shape := ⟨2, ![64, 64]⟩
abbrev S2x2 : Shape := ⟨2, ![2, 2]⟩
abbrev S_ : Shape := ⟨0, ![]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S16x128 : Shape := ⟨2, ![16, 128]⟩
abbrev S4096x128 : Shape := ⟨2, ![4096, 128]⟩
abbrev S8x128 : Shape := ⟨2, ![8, 128]⟩
abbrev S1x1 : Shape := ⟨2, ![1, 1]⟩
abbrev S4096 : Shape := ⟨1, ![4096]⟩
abbrev S4096x1 : Shape := ⟨2, ![4096, 1]⟩
abbrev S1 : Shape := ⟨1, ![1]⟩

abbrev nBuf : Space → Nat
  | .hbm => 44
  | .vmem => 9
  | .smem => 0
  | _ => 0

abbrev bufTy : (tb : Table) → Fin (tcTables nBuf tb) → BufTy
  | .hbm, ⟨0, _⟩ => ⟨S524288x64, .f32⟩
  | .hbm, ⟨1, _⟩ => ⟨S524288x64, .f32⟩
  | .hbm, ⟨2, _⟩ => ⟨S64, .i32⟩
  | .hbm, ⟨3, _⟩ => ⟨S262144x128, .f32⟩
  | .hbm, ⟨4, _⟩ => ⟨S262144x128, .f32⟩
  | .hbm, ⟨5, _⟩ => ⟨S8, .i32⟩
  | .hbm, ⟨6, _⟩ => ⟨S64x1, .i32⟩
  | .hbm, ⟨7, _⟩ => ⟨S1x8, .i32⟩
  | .hbm, ⟨8, _⟩ => ⟨S64x8, .i32⟩
  | .hbm, ⟨9, _⟩ => ⟨S64x8, .i32⟩
  | .hbm, ⟨10, _⟩ => ⟨S64x8, .i1⟩
  | .hbm, ⟨11, _⟩ => ⟨S64x8, .f32⟩
  | .hbm, ⟨12, _⟩ => ⟨S8x64, .f32⟩
  | .hbm, ⟨13, _⟩ => ⟨S64x64, .f32⟩
  | .hbm, ⟨14, _⟩ => ⟨S2x2, .i32⟩
  | .hbm, ⟨15, _⟩ => ⟨S2x2, .i32⟩
  | .hbm, ⟨16, _⟩ => ⟨S_, .i32⟩
  | .hbm, ⟨17, _⟩ => ⟨S2x2, .i32⟩
  | .hbm, ⟨18, _⟩ => ⟨S2x2, .i32⟩
  | .hbm, ⟨19, _⟩ => ⟨S2x2, .i1⟩
  | .hbm, ⟨20, _⟩ => ⟨S2x2, .f32⟩
  | .hbm, ⟨21, _⟩ => ⟨S2x1x2x1, .f32⟩
  | .hbm, ⟨22, _⟩ => ⟨S1x64x1x64, .f32⟩
  | .hbm, ⟨23, _⟩ => ⟨S2x64x2x64, .f32⟩
  | .hbm, ⟨24, _⟩ => ⟨S2x64x2x64, .f32⟩
  | .hbm, ⟨25, _⟩ => ⟨S2x64x2x64, .f32⟩
  | .hbm, ⟨26, _⟩ => ⟨S128x128, .f32⟩
  | .hbm, ⟨27, _⟩ => ⟨S128x128, .bf16⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S64, .f32⟩
  | .hbm, ⟨32, _⟩ => ⟨S1x64, .f32⟩
  | .hbm, ⟨33, _⟩ => ⟨S1x1x1x64, .f32⟩
  | .hbm, ⟨34, _⟩ => ⟨S1x1x2x64, .f32⟩
  | .hbm, ⟨35, _⟩ => ⟨S1x128, .f32⟩
  | .hbm, ⟨36, _⟩ => ⟨S16x128, .f32⟩
  | .hbm, ⟨37, _⟩ => ⟨S1x1, .f32⟩
  | .hbm, ⟨38, _⟩ => ⟨S_, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x128, .f32⟩
  | .local _ .vmem, ⟨5, _⟩ => ⟨S128x128, .bf16⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v62 : BitVec 1 := Scalar.cmpi .eq arg1 c31_i32
  let v63 : BitVec 32 := Scalar.extui v62
  let c0_i32_27 : BitVec 32 := 0#32
  let v64 : BitVec 1 := Scalar.cmpi .ne v63 c0_i32_27
  v64

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S524288x64_S262144x128 : S524288x64.ShapeCasts S262144x128
  bcast_S64_S64x1_0 : S64.BroadcastsInDim S64x1 (![0] : Fin 1 → Fin S64x1.rank)
  bcast_S8_S1x8_1 : S8.BroadcastsInDim S1x8 (![1] : Fin 1 → Fin S1x8.rank)
  bcast_S64x1_S64x8_0_1 : S64x1.BroadcastsInDim S64x8 (![0, 1] : Fin 2 → Fin S64x8.rank)
  bcast_S1x8_S64x8_0_1 : S1x8.BroadcastsInDim S64x8 (![0, 1] : Fin 2 → Fin S64x8.rank)
  transposes_S64x8_S8x64_1_0 : S64x8.Transposes [1, 0] S8x64
  bcast_S_S2x2 : S_.BroadcastsInDim S2x2 (![] : Fin 0 → Fin S2x2.rank)
  bcast_S2x2_S2x1x2x1_0_2 : S2x2.BroadcastsInDim S2x1x2x1 (![0, 2] : Fin 2 → Fin S2x1x2x1.rank)
  bcast_S64x64_S1x64x1x64_1_3 : S64x64.BroadcastsInDim S1x64x1x64 (![1, 3] : Fin 2 → Fin S1x64x1x64.rank)
  bcast_S2x1x2x1_S2x64x2x64_0_1_2_3 : S2x1x2x1.BroadcastsInDim S2x64x2x64 (![0, 1, 2, 3] : Fin 4 → Fin S2x64x2x64.rank)
  bcast_S1x64x1x64_S2x64x2x64_0_1_2_3 : S1x64x1x64.BroadcastsInDim S2x64x2x64 (![0, 1, 2, 3] : Fin 4 → Fin S2x64x2x64.rank)
  shapeCasts_S2x64x2x64_S128x128 : S2x64x2x64.ShapeCasts S128x128
  bitsLt_bf16_f32 : FTy.bits .bf16 < FTy.bits .f32
  bcast_S_S64 : S_.BroadcastsInDim S64 (![] : Fin 0 → Fin S64.rank)
  shapeCasts_S64_S1x64 : S64.ShapeCasts S1x64
  shapeCasts_S1x64_S1x1x1x64 : S1x64.ShapeCasts S1x1x1x64
  bcast_S1x1x1x64_S1x1x2x64_0_1_2_3 : S1x1x1x64.BroadcastsInDim S1x1x2x64 (![0, 1, 2, 3] : Fin 4 → Fin S1x1x2x64.rank)
  shapeCasts_S1x1x2x64_S1x128 : S1x1x2x64.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  natLt_1_32 : 1 < 32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S64x8_S8x64_S64x64_1_0_0_1_n_n_wf : DotDims.WF S64x8 S8x64 S64x64 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def dot_S64x8_S8x64_S64x64_1_0_0_1_n_n : DotDims S64x8 S8x64 S64x64 where
  lhsContracting := [1]
  rhsContracting := [0]
  lhsNonContracting := [0]
  rhsNonContracting := [1]
  lhsBatch := []
  rhsBatch := []
  wf := dot_S64x8_S8x64_S64x64_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S524288x64 : Shape := ⟨2, ![524288, 64]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S524288x8 : Shape := ⟨2, ![524288, 8]⟩
abbrev S1 : Shape := ⟨1, ![1]⟩
abbrev S1x1 : Shape := ⟨2, ![1, 1]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S524288x64, .f32⟩
  | .hbm, ⟨2, _⟩ => ⟨S64, .i32⟩
  | .hbm, ⟨3, _⟩ => ⟨S_, .f32⟩
  | .hbm, ⟨4, _⟩ => ⟨S524288x64, .f32⟩
  | .hbm, ⟨5, _⟩ => ⟨S524288x64, .f32⟩
  | .hbm, ⟨6, _⟩ => ⟨S524288x64, .f32⟩
  | .hbm, ⟨7, _⟩ => ⟨S524288x64, .f32⟩
  | .hbm, ⟨8, _⟩ => ⟨S524288x64, .f32⟩
  | .hbm, ⟨9, _⟩ => ⟨S524288x64, .f32⟩
  | .hbm, ⟨10, _⟩ => ⟨S524288x64, .f32⟩
  | .hbm, ⟨11, _⟩ => ⟨S524288x64, .f32⟩
  | .hbm, ⟨12, _⟩ => ⟨S524288x64, .f32⟩
  | .hbm, ⟨13, _⟩ => ⟨S524288x64, .f32⟩
  | .hbm, ⟨14, _⟩ => ⟨S524288x64, .f32⟩
  | .hbm, ⟨15, _⟩ => ⟨S_, .f32⟩
  | .hbm, ⟨16, _⟩ => ⟨S524288x64, .f32⟩
  | .hbm, ⟨17, _⟩ => ⟨S524288x64, .f32⟩
  | .hbm, ⟨18, _⟩ => ⟨S_, .f32⟩
  | .hbm, ⟨19, _⟩ => ⟨S524288x64, .f32⟩
  | .hbm, ⟨20, _⟩ => ⟨S524288x64, .f32⟩
  | .hbm, ⟨21, _⟩ => ⟨S_, .f32⟩
  | .hbm, ⟨22, _⟩ => ⟨S524288x64, .f32⟩
  | .hbm, ⟨23, _⟩ => ⟨S524288x64, .f32⟩
  | .hbm, ⟨24, _⟩ => ⟨S524288x64, .f32⟩
  | .hbm, ⟨25, _⟩ => ⟨S64x1, .i32⟩
  | .hbm, ⟨26, _⟩ => ⟨S8, .i32⟩
  | .hbm, ⟨27, _⟩ => ⟨S1x8, .i32⟩
  | .hbm, ⟨28, _⟩ => ⟨S64x8, .i32⟩
  | .hbm, ⟨29, _⟩ => ⟨S64x8, .i32⟩
  | .hbm, ⟨30, _⟩ => ⟨S64x8, .i1⟩
  | .hbm, ⟨31, _⟩ => ⟨S64x8, .f32⟩
  | .hbm, ⟨32, _⟩ => ⟨S524288x8, .f32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S1, .i32⟩
  | .hbm, ⟨42, _⟩ => ⟨S_, .i32⟩
  | .hbm, ⟨43, _⟩ => ⟨S64x1, .i32⟩
  | .hbm, ⟨44, _⟩ => ⟨S64x1, .i1⟩
  | .hbm, ⟨45, _⟩ => ⟨S1x1, .i32⟩
  | .hbm, ⟨46, _⟩ => ⟨S64x1, .i32⟩
  | .hbm, ⟨47, _⟩ => ⟨S64x1, .i1⟩
  | .hbm, ⟨48, _⟩ => ⟨S64x1, .i1⟩
  | .hbm, ⟨49, _⟩ => ⟨S_, .i1⟩
  | .hbm, ⟨50, _⟩ => ⟨S64, .i1⟩
  | .hbm, ⟨51, _⟩ => ⟨S524288x64, .f32⟩
  | .hbm, ⟨52, _⟩ => ⟨S524288x64, .i1⟩
  | .hbm, ⟨53, _⟩ => ⟨S_, .f32⟩
  | .hbm, ⟨54, _⟩ => ⟨S524288x64, .f32⟩
  | .hbm, ⟨55, _⟩ => ⟨S524288x64, .f32⟩
  | .hbm, ⟨56, _⟩ => ⟨S1x64, .i32⟩
  | .hbm, ⟨57, _⟩ => ⟨S_, .i32⟩
  | .hbm, ⟨58, _⟩ => ⟨S1x64, .i32⟩
  | .hbm, ⟨59, _⟩ => ⟨S1x64, .i1⟩
  | .hbm, ⟨60, _⟩ => ⟨S_, .f32⟩
  | .hbm, ⟨61, _⟩ => ⟨S524288x64, .f32⟩
  | .hbm, ⟨62, _⟩ => ⟨S524288x64, .i1⟩
  | .hbm, ⟨63, _⟩ => ⟨S524288x64, .f32⟩
  | .hbm, ⟨64, _⟩ => ⟨S_, .f32⟩
  | .hbm, ⟨65, _⟩ => ⟨S_, .f32⟩
  | .hbm, ⟨66, _⟩ => ⟨S524288x64, .i1⟩
  | .hbm, ⟨67, _⟩ => ⟨S524288x64, .f32⟩
  | .hbm, ⟨68, _⟩ => ⟨S524288x64, .f32⟩
  | .hbm, ⟨69, _⟩ => ⟨S_, .f32⟩
  | .hbm, ⟨70, _⟩ => ⟨S524288x64, .f32⟩
  | .hbm, ⟨71, _⟩ => ⟨S524288x64, .f32⟩
  | .hbm, ⟨72, _⟩ => ⟨S524288x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v26 : Ref sig .tc := ⟨.hbm, 55, rfl⟩
abbrev main_v27 : Ref sig .tc := ⟨.hbm, 56, rfl⟩
abbrev main_c : Ref sig .tc := ⟨.hbm, 57, rfl⟩
abbrev main_v28 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_4 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v33 : Ref sig .tc := ⟨.hbm, 68, rfl⟩
abbrev main_cst_5 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_6 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩

abbrev nD : Nat := 1
abbrev τ : Topo := Topo.v7x

variable {F : FTy → Type} [FloatOps F]

class Facts₀ : Prop where
  bcast_S_S524288x64 : S_.BroadcastsInDim S524288x64 (![] : Fin 0 → Fin S524288x64.rank)
  bcast_S64_S64x1_0 : S64.BroadcastsInDim S64x1 (![0] : Fin 1 → Fin S64x1.rank)
  bcast_S8_S1x8_1 : S8.BroadcastsInDim S1x8 (![1] : Fin 1 → Fin S1x8.rank)
  bcast_S64x1_S64x8_0_1 : S64x1.BroadcastsInDim S64x8 (![0, 1] : Fin 2 → Fin S64x8.rank)
  bcast_S1x8_S64x8_0_1 : S1x8.BroadcastsInDim S64x8 (![0, 1] : Fin 2 → Fin S64x8.rank)
  bcast_S_S64 : S_.BroadcastsInDim S64 (![] : Fin 0 → Fin S64.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S524288x64_1 : S64.BroadcastsInDim S524288x64 (![1] : Fin 1 → Fin S524288x64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S524288x64_0_1 : S1x64.BroadcastsInDim S524288x64 (![0, 1] : Fin 2 → Fin S524288x64.rank)
  reducesTo_S524288x64_S_d0_1 : S524288x64.ReducesTo [0, 1] S_
  dot_S524288x64_S64x8_S524288x8_1_0_0_1_n_n_wf : DotDims.WF S524288x64 S64x8 S524288x8 [1] [0] [0] [1] [] []
  gather_S524288x8_S64x1_S524288x64_0_1_n_n_1_1_5242881_wf : GatherDims.WF S524288x8 S64x1 S524288x64 [0] [1] [] [1] [] 1 ![524288, 1]

variable [Facts₀]

def dot_S524288x64_S64x8_S524288x8_1_0_0_1_n_n : DotDims S524288x64 S64x8 S524288x8 where
  lhsContracting := [1]
  rhsContracting := [0]
  lhsNonContracting := [0]
  rhsNonContracting := [1]
  lhsBatch := []
  rhsBatch := []
  wf := dot_S524288x64_S64x8_S524288x8_1_0_0_1_n_n_wf
def gather_S524288x8_S64x1_S524288x64_0_1_n_n_1_1_5242881 : GatherDims S524288x8 S64x1 S524288x64 where
  offsetDims := [0]
  collapsedSliceDims := [1]
  operandBatchingDims := []
  startIndicesBatchingDims := []
  startIndexMap := [1]
  indexVectorDim := 1
  sliceSizes := ![524288, 1]
  wf := gather_S524288x8_S64x1_S524288x64_0_1_n_n_1_1_5242881_wf

class Facts : Prop extends Facts₀ where

variable [Facts]
-- ==== Proof.KPieces.lean ====
/-
  What each control case of the kernel's body leaves behind, as pure terms of the blocks it loaded.

  The body keeps one carried 1 x 1 accumulator.  At a tile that starts a half (case A) it stores zero, reads it
  back and stores "accumulator + this tile's sum"; at a middle tile (case B) it stores "what the tile before left +
  this tile's sum"; at a tile that ends a half (case C) it does the same and then writes the output block: the
  accumulator at cell (0, 0), zero elsewhere.  Every store covers its whole buffer, so the contents after the body
  are the last store's payload.
-/
import proofs.«419825_j37220186587138_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- Every store and load of the body starts at the origin of its buffer. -/
theorem hz : (![0, 0] : Fin 2 → Nat) = fun _ => 0 := by funext a; fin_cases a <;> rfl

/-- A middle tile leaves in the accumulator what the tile before left plus its own sum. -/
theorem sout_B (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : ¬cond0_1 i)
    (x0 : Vec F S4096x128 .f32) (x1 : Vec F S4096x128 .f32) (x2 : Vec F S1x128 .f32) (x3 : Vec F S128x128 .bf16) (xs0 : Vec F S1x1 .f32) :
    sout0_B_0 c i arg2 harg2 arg3 harg3 arg4 harg4 arg5 harg5 arg6 harg6 arg7 harg7 hc0 hc1 x0 x1 x2 x3 xs0
      = k0_pay1 (k0_pay5 x0 x1) (k0_pay6 x1 x3) (Scalar.ofBits .f32 0x00000000#32) x2 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg4.read_unread, harg5.read_unread, harg7.read_unread,
    View.ld_unit_zero (S := S4096x128) hz, View.ld_unit_zero (S := S128x128) hz, View.ld_unit_zero (S := S1x128) hz, View.ld_unit_zero (S := S1x1) hz]

/-- A tile that starts a half leaves its own sum added to the zero it first stored and read back. -/
theorem sout_A (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x128 .f32) (x1 : Vec F S4096x128 .f32) (x2 : Vec F S1x128 .f32) (x3 : Vec F S128x128 .bf16) :
    sout0_A_0 c i arg2 harg2 arg3 harg3 arg4 harg4 arg5 harg5 arg6 harg6 arg7 harg7 hc0 hc1 x0 x1 x2 x3
      = k0_pay1 (k0_pay5 x0 x1) (k0_pay6 x1 x3) (Scalar.ofBits .f32 0x00000000#32) x2 (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg7.read_unread,
    View.ld_unit_zero (S := S4096x128) hz, View.ld_unit_zero (S := S128x128) hz, View.ld_unit_zero (S := S1x128) hz, View.ld_unit_zero (S := S1x1) hz]

/-- A tile that ends a half leaves the same in the accumulator as a middle tile … -/
theorem sout_C (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x128 .f32) (x1 : Vec F S4096x128 .f32) (x2 : Vec F S1x128 .f32) (x3 : Vec F S128x128 .bf16) (xs0 : Vec F S1x1 .f32) :
    sout0_C_0 c i arg2 harg2 arg3 harg3 arg4 harg4 arg5 harg5 arg6 harg6 arg7 harg7 hc0 hc1 x0 x1 x2 x3 xs0
      = k0_pay1 (k0_pay5 x0 x1) (k0_pay6 x1 x3) (Scalar.ofBits .f32 0x00000000#32) x2 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.ld_unit_zero (S := S4096x128) hz, View.ld_unit_zero (S := S128x128) hz, View.ld_unit_zero (S := S1x128) hz, View.ld_unit_zero (S := S1x1) hz]

/-- … and writes the output block from the accumulator it has just stored and read back. -/
theorem out_C (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x128 .f32) (x1 : Vec F S4096x128 .f32) (x2 : Vec F S1x128 .f32) (x3 : Vec F S128x128 .bf16) (xs0 : Vec F S1x1 .f32) :
    out0_C_4 c i arg2 harg2 arg3 harg3 arg4 harg4 arg5 harg5 arg6 harg6 arg7 harg7 hc0 hc1 x0 x1 x2 x3 xs0
      = k0_pay2 (k0_pay1 (k0_pay5 x0 x1) (k0_pay6 x1 x3) (Scalar.ofBits .f32 0x00000000#32) x2 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S8x128) hz, View.readCov_unit_zero (S := S1x1) _ hz]
  simp only [View.readAt_eq_ld, harg2.read_unread, harg3.read_unread, harg4.read_unread, harg5.read_unread, harg7.read_unread,
    View.ld_unit_zero (S := S4096x128) hz, View.ld_unit_zero (S := S128x128) hz, View.ld_unit_zero (S := S1x128) hz, View.ld_unit_zero (S := S1x1) hz]

end Cert.KernelIdeal.Pieces

end
-- ==== Proof.Spec.lean ====
/-
  The arithmetic the two programs share, one element at a time, and the laws that join their two
  arrangements of it.

  Both programs compute a focal loss with a per-group mask and average it over all 524288 x 64 elements.
  For a logit x and a label t:   bce = max x 0 - x t + log (1 + exp (-|x|)),   loss = (1 - pt)^2 bce,
  where the reference takes pt = exp (-bce) and the kernel takes pt = (1 or exp (-|x|)) / (1 + exp (-|x|)),
  the numerator chosen by whether the signs of x and of t - 1/2 agree: for a label that is 0 or 1 the two are
  one number.  The mask of class c in sample b is 3/2 when c's group is group 0, and otherwise 3/2 or 0 as the
  sample's labels summed over c's group are positive or not.  The reference sums the labels against a one-hot
  table and looks the sum up at c's group; the kernel multiplies a re-laid row of labels (two samples side by
  side, 128 lanes) by a 128 x 128 block-diagonal table of "same group" flags: for group words in 0..7 the two
  sums are the same.  The reference adds all elements at once; the kernel adds them tile by tile (4096 re-laid
  rows each) into one accumulator per half of the rows, restarted at tiles 0 and 32, and adds the two halves.
-/
import Idealize.ShloMosaic.PureOps.Ideal
import Idealize.ShloMosaic.PureOps.Ideal.Laws
import Idealize.ShloMosaic.Lib.ValueIdx

noncomputable section

namespace Cert.Focal

open Idealize.ShloMosaic Idealize.ShloMosaic.ValueIdx
open scoped BigOperators

/-- Logits, and labels: 524288 samples of 64 classes, as extended reals. -/
abbrev Arr : Type := FVec Ideal (⟨2, ![524288, 64]⟩ : Shape) .f32
/-- The group word of each of the 64 classes. -/
abbrev Grp : Type := IVec (⟨1, ![64]⟩ : Shape) 32

/-! ## The literals both programs spell -/

/-- 0.0 -/
abbrev c0 : EReal := Ideal.ofBits .f32 0x00000000#32
/-- 0.5 -/
abbrev cHalf : EReal := Ideal.ofBits .f32 0x3F000000#32
/-- 1.0 -/
abbrev c1 : EReal := Ideal.ofBits .f32 0x3F800000#32
/-- 1.5 -/
abbrev c15 : EReal := Ideal.ofBits .f32 0x3FC00000#32
/-- 2.0 -/
abbrev c2 : EReal := Ideal.ofBits .f32 0x40000000#32
/-- 33554432.0 = 524288 * 64 -/
abbrev cN : EReal := Ideal.ofBits .f32 0x4C000000#32

/-! ## One element -/

/-- The stable cross-entropy of logit `x` against label `t`, over `e` = exp (-|x|) as either side computed it. -/
def bce (x t e : EReal) : EReal := (max x c0 - x * t) + Ideal.log1p e

/-- The kernel's focal loss of one element: pt is 1 / (1 + e) where the sign of x agrees with the label's side of one
    half, e / (1 + e) where it does not; the square is a product. -/
def kLoss (x t : EReal) : EReal :=
  let e := Ideal.exp (c0 - max x (-x))
  let agree : BitVec 1 := IntOp.xori (IntOp.xori (Ideal.cmp .ogt x c0) (Ideal.cmp .ogt t cHalf)) 1#1
  let pt := Ideal.div (Scalar.select agree c1 e) (c1 + e)
  ((c1 * (c1 - pt)) * (c1 - pt)) * bce x t e

/-- The reference's focal loss of one element: pt = exp (-bce); the square is a power with exponent 2. -/
def rLoss (x t : EReal) : EReal :=
  let e := Ideal.exp (-(max x (-x)))
  (c1 * Ideal.pow (c1 - Ideal.exp (-(bce x t e))) c2) * bce x t e

/-- The kernel's mask of one element, from the label sum `s` of its group and its group-0 flag `z` (a 0/1 number):
    one where the flag exceeds one half, else the 0/1 word of "s > 0" read as a signed 32-bit integer; times 3/2. -/
def kMask (s z : EReal) : EReal :=
  Scalar.select (Ideal.cmp .ogt z cHalf) c1 ((((Ideal.cmp .ogt s c0).setWidth 32).toInt : ℝ) : EReal) * c15

/-- The reference's mask of one element, from the label sum `s` of its group and the bit `z` "its group is group 0":
    one where the bit is set, else the bit of "s > 0" read as an unsigned number; times 3/2. -/
def rMask (s : EReal) (z : BitVec 1) : EReal :=
  Scalar.select z c1 (((Ideal.cmp .ogt s c0).toNat : ℝ) : EReal) * c15

/-! ## The reference's arrangement: samples by classes -/

/-- Classes `c` and `c'` carry the same group word, as a 0/1 number. -/
def same (g : Grp) (c c' : Fin 64) : EReal := (((IntOp.cmpi .eq (g (ix1 c)) (g (ix1 c'))).toNat : ℝ) : EReal)

/-- Sample `b`'s labels summed over the classes of class `c'`'s group. -/
def pcs (t : Arr) (g : Grp) (b : Fin 524288) (c' : Fin 64) : EReal := ∑ c : Fin 64, t (ix2 b c) * same g c c'

/-- Class `c`'s group word is 0. -/
def gz (g : Grp) (c : Fin 64) : BitVec 1 := IntOp.cmpi .eq (g (ix1 c)) 0#32

/-- The reference's summand at sample `b`, class `c`. -/
def rTerm (x t : Arr) (g : Grp) (b : Fin 524288) (c : Fin 64) : EReal :=
  rLoss (x (ix2 b c)) (t (ix2 b c)) * rMask (pcs t g b c) (gz g c)

/-- The reference's value: the sum of all summands from 0, over the count of elements. -/
def rTotal (x t : Arr) (g : Grp) : EReal := Ideal.div (c0 + ∑ b : Fin 524288, ∑ c : Fin 64, rTerm x t g b c) cN

/-! ## The kernel's arrangement: 262144 re-laid rows of 128 lanes, two samples side by side -/

/-- Re-laid row `r`, lane `l` is sample `2 r + l / 64` … -/
def rowOf (r : Fin 262144) (l : Fin 128) : Fin 524288 := ⟨2 * r.val + l.val / 64, by omega⟩
/-- … class `l % 64`. -/
def colOf (l : Fin 128) : Fin 64 := ⟨l.val % 64, by omega⟩
/-- Which of the two samples of a re-laid row lane `l` belongs to. -/
def halfOf (l : Fin 128) : Fin 2 := ⟨l.val / 64, by omega⟩

/-- An array read in the re-laid arrangement. -/
def relaid (a : Arr) (r : Fin 262144) (l : Fin 128) : EReal := a (ix2 (rowOf r l) (colOf l))

/-- Class `c` is in group `k`, as a 0/1 number (the one-hot table). -/
def oh (g : Grp) (c : Fin 64) (k : Fin 8) : EReal := (((IntOp.cmpi .eq (g (ix1 c)) (BitVec.ofNat 32 k.val)).toNat : ℝ) : EReal)

/-- The one-hot table times its transpose: the number of groups 0..7 both classes are in. -/
def sameK (g : Grp) (c c' : Fin 64) : EReal := ∑ k : Fin 8, oh g c k * oh g c' k

/-- The 2 x 2 identity as the kernel's wrapper builds it (row index plus zero against column index), as a 0/1 number. -/
def eye2 (a a' : Fin 2) : EReal :=
  (((IntOp.cmpi .eq (IntOp.addi (BitVec.ofNat 32 a.val) 0#32) (BitVec.ofNat 32 a'.val)).toNat : ℝ) : EReal)

/-- The block-diagonal 128 x 128 table: lanes of different samples never meet. -/
def blockDiag (g : Grp) (k l : Fin 128) : EReal := eye2 (halfOf k) (halfOf l) * sameK g (colOf k) (colOf l)

/-- The kernel's label sum at re-laid row `r`, lane `l`: the row of labels against the table's column `l`. -/
def pcsK (t : Arr) (g : Grp) (r : Fin 262144) (l : Fin 128) : EReal := ∑ k : Fin 128, relaid t r k * blockDiag g k l

/-- The kernel's group-0 flag of lane `l`, a 0/1 number. -/
def g0K (g : Grp) (l : Fin 128) : EReal := (((gz g (colOf l)).toNat : ℝ) : EReal)

/-- The kernel's summand at re-laid row `r`, lane `l`. -/
def kTerm (x t : Arr) (g : Grp) (r : Fin 262144) (l : Fin 128) : EReal :=
  kLoss (relaid x r l) (relaid t r l) * kMask (pcsK t g r l) (g0K g l)

/-- Row `row` of tile `n` (tiles are 4096 re-laid rows; `n` < 64 in every use). -/
def tileRow (n : ℕ) (row : Fin 4096) : Fin 262144 := ⟨(4096 * n + row.val) % 262144, Nat.mod_lt _ (by norm_num)⟩

/-- What one grid point adds: lanes first, then rows. -/
def tileSum (f : Fin 262144 → Fin 128 → EReal) (n : ℕ) : EReal := ∑ row : Fin 4096, ∑ l : Fin 128, f (tileRow n row) l

/-- The carried accumulator after grid point `n`: restarted from 0 at the points that are multiples of 32. -/
def accOf (f : Fin 262144 → Fin 128 → EReal) : ℕ → EReal
  | 0 => c0 + tileSum f 0
  | n + 1 => if (n + 1) % 32 = 0 then c0 + tileSum f (n + 1) else accOf f n + tileSum f (n + 1)

/-- The kernel's value: the two halves' accumulators added, over the count of elements. -/
def kTotal (x t : Arr) (g : Grp) : EReal := Ideal.div (accOf (kTerm x t g) 31 + accOf (kTerm x t g) 63) cN

end Cert.Focal

end
-- ==== Proof.KAccum.lean ====
/-
  The carried accumulator, point by point.

  The launch visits 64 tiles in order; tiles 0..31 are the first half of the re-laid rows, 32..63 the second.  If one
  tile's arithmetic adds the tile's sum to whatever accumulator it is given, and the restart value is zero, then after
  tile n the accumulator holds the restarted running sum of the tile sums (Spec's accOf), and at the last tile of a
  half the output block is that number at cell (0, 0) and zero elsewhere.
-/
import proofs.«419825_j37220186587138_3_alg».proof.Proof.KPieces
import proofs.«419825_j37220186587138_3_alg».proof.Proof.Spec

set_option maxRecDepth 16384

noncomputable section

namespace Cert.KernelIdeal.Accum

open Cert.KernelIdeal Cert.KernelIdeal.Gen Cert.KernelIdeal.Pieces Cert.Focal
open Idealize.ShloMosaic Idealize.ShloMosaic.TcCoe Idealize.ShloMosaic.ValueIdx
open Idealize.SL Idealize.SL.Sem

variable (m : (ℓ : Loc nD τ sig) → Buf (Elt Ideal) ℓ)

/-- The logits' block, the labels' block, the group-0 flag row and the same-group table as the body finds them at point t. -/
abbrev xblk (c : Dev nD) (t : Fin cfg0.N) : Vec Ideal S4096x128 .f32 := iblk m c 0 t
abbrev tblk (c : Dev nD) (t : Fin cfg0.N) : Vec Ideal S4096x128 .f32 := iblk m c 1 t
abbrev fblk (c : Dev nD) (t : Fin cfg0.N) : Vec Ideal S1x128 .f32 := iblk m c 2 t
abbrev mblk (c : Dev nD) (t : Fin cfg0.N) : Vec Ideal S128x128 .bf16 := iblk m c 3 t

/-- One tile's arithmetic on the blocks of point t, from the accumulator it is given. -/
abbrev step (c : Dev nD) (t : Fin cfg0.N) (acc : Vec Ideal S1x1 .f32) : Vec Ideal S1x1 .f32 :=
  k0_pay1 (F := Ideal) (k0_pay5 (xblk m c t) (tblk m c t)) (k0_pay6 (tblk m c t) (mblk m c t)) (Scalar.ofBits .f32 0x00000000#32) (fblk m c t) acc

/-- The tile law: a tile adds its sum (of some per-element function f of the re-laid index) to the accumulator's one cell. -/
def TileLaw (f : Fin 262144 → Fin 128 → EReal) : Prop :=
  ∀ (c : Dev nD) (t : Fin cfg0.N) (acc : Vec Ideal S1x1 .f32), step m c t acc = fun _ => acc (ix2 0 0) + tileSum f t.val

theorem N64 : cfg0.N = 64 := N_0

/-- After point n the carried accumulator holds the restarted running sum. -/
theorem scratch_after (f : Fin 262144 → Fin 128 → EReal)
    (hreset : (k0_pay3 (F := Ideal) : S1x1.Idx → EReal) = fun _ => c0) (htile : TileLaw m f) (c : Dev nD) :
    ∀ (n : ℕ) (hn : n < cfg0.N), (outsAt0 m c n hn).2 = fun _ => accOf f n := by
  intro n
  induction n with
  | zero =>
    intro hn
    have h0 : (⟨0, hn⟩ : Fin cfg0.N).val % 32 = 0 := rfl
    have h1 : ¬ (⟨0, hn⟩ : Fin cfg0.N).val % 32 = 31 := by show ¬ (0 % 32 = 31); decide
    have e := outsAt0_A m c ⟨0, hn⟩ h0 h1
    refine (congrArg Prod.snd e).trans ?_
    dsimp only
    rw [sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk m c 0 ⟨0, hn⟩) (iblk m c 1 ⟨0, hn⟩) (iblk m c 2 ⟨0, hn⟩) (iblk m c 3 ⟨0, hn⟩)]
    refine (htile c ⟨0, hn⟩ (k0_pay3 (F := Ideal))).trans ?_
    funext _
    rw [hreset]
    rfl
  | succ n ih =>
    intro hn
    have hN : n + 1 < 64 := lt_of_lt_of_eq hn N64
    have ihn := ih (Nat.lt_of_succ_lt hn)
    by_cases h0 : (n + 1) % 32 = 0
    · have h1 : ¬ (n + 1) % 32 = 31 := by omega
      have e := outsAt0_A m c ⟨n + 1, hn⟩ h0 h1
      refine (congrArg Prod.snd e).trans ?_
      dsimp only
      rw [sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)]
      refine (htile c ⟨n + 1, hn⟩ (k0_pay3 (F := Ideal))).trans ?_
      funext _
      rw [hreset]
      show c0 + tileSum f (n + 1) = accOf f (n + 1)
      rw [accOf, if_pos h0]
    · have step_eq : accOf f (n + 1) = accOf f n + tileSum f (n + 1) := by rw [accOf, if_neg h0]
      by_cases h1 : (n + 1) % 32 = 31
      · have e := outsAt0_C m c ⟨n + 1, hn⟩ h0 h1
        refine (congrArg Prod.snd e).trans ?_
        dsimp only
        rw [sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) _]
        refine (htile c ⟨n + 1, hn⟩ _).trans ?_
        funext _
        rw [step_eq]
        exact congrArg (· + tileSum f (n + 1)) (congrFun ihn (ix2 0 0))
      · have e := outsAt0_B m c ⟨n + 1, hn⟩ h0 h1
        refine (congrArg Prod.snd e).trans ?_
        dsimp only
        rw [sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) _]
        refine (htile c ⟨n + 1, hn⟩ _).trans ?_
        funext _
        rw [step_eq]
        exact congrArg (· + tileSum f (n + 1)) (congrFun ihn (ix2 0 0))

end Cert.KernelIdeal.Accum

end
-- ==== Proof.KFinal.lean ====
/-
  The kernel's 16 x 128 output array after the launch.

  Only the last tile of each half writes its output block back: tile 31 writes rows 0..7, tile 63 rows 8..15, and the
  block written is the half's accumulator at cell (0, 0), zero elsewhere.  The two blocks cover the array, so the array
  ends as one function of its index: at (8 p, 0) the accumulator after tile 32 p + 31, zero everywhere else.
-/
import proofs.«419825_j37220186587138_3_alg».proof.Proof.KAccum
import Idealize.ShloMosaic.Lib.Pipeline.Value

set_option maxRecDepth 16384

noncomputable section

namespace Cert.KernelIdeal.OutArray

open Cert.KernelIdeal Cert.KernelIdeal.Gen Cert.KernelIdeal.Pieces Cert.KernelIdeal.Accum Cert.Focal
open Idealize.ShloMosaic Idealize.ShloMosaic.TcCoe Idealize.ShloMosaic.ValueIdx
open Idealize.SL Idealize.SL.Sem

variable (m : (ℓ : Loc nD τ sig) → Buf (Elt Ideal) ℓ)

/-- What the body's three pure pieces compute, as laws of the per-element function f: the restart value is zero, a tile
    adds its sum, and the output block is the accumulator at cell (0, 0) over zeros. -/
structure BodyLaws (f : Fin 262144 → Fin 128 → EReal) : Prop where
  reset : (k0_pay3 (F := Ideal) : S1x1.Idx → EReal) = fun _ => c0
  tile : TileLaw m f
  cell : ∀ (acc : Vec Ideal S1x1 .f32) (j : S8x128.Idx),
    k0_pay2 (F := Ideal) acc j = if (j 0).val = 0 ∧ (j 1).val = 0 then acc (ix2 0 0) else c0

/-- The output array as one function of its index. -/
def outArr (f : Fin 262144 → Fin 128 → EReal) : S16x128.Idx → EReal := fun i =>
  if (i 0).val % 8 = 0 ∧ (i 1).val = 0 then accOf f (32 * ((i 0).val / 8) + 31) else c0

/-- The output window's block index at point t: the half t belongs to, and column block 0. -/
theorem idx4 : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

/-- At the last tile of a half the output block is written from the accumulator that tile leaves. -/
theorem out_at_last (f : Fin 262144 → Fin 128 → EReal) (L : BodyLaws m f) (c : Dev nD) (t : Fin cfg0.N) (h31 : t.val % 32 = 31) :
    (outsAt0 m c t.val t.isLt).1 = k0_pay2 (F := Ideal) (fun _ => accOf f t.val) := by
  have h0 : ¬ t.val % 32 = 0 := by omega
  have hs := scratch_after m f L.reset L.tile c t.val t.isLt
  have e := outsAt0_C m c t h0 h31
  rw [e] at hs
  refine (congrArg Prod.fst e).trans ?_
  dsimp only at hs ⊢
  rw [sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h31) (iblk m c 0 t) (iblk m c 1 t) (iblk m c 2 t) (iblk m c 3 t) _] at hs
  rw [out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h31) (iblk m c 0 t) (iblk m c 1 t) (iblk m c 2 t) (iblk m c 3 t) _]
  exact congrArg (k0_pay2 (F := Ideal)) hs

/-- The output window moves whole 8 x 128 blocks. -/
theorem xsize4 : ∀ t : Fin cfg0.N, win0_4.xsize (grid0.coords t) (0 : Fin 2) = 8 ∧ win0_4.xsize (grid0.coords t) (1 : Fin 2) = 128 :=
  (by decide +kernel : ∀ t : Fin grid0.N, win0_4.xsize (grid0.coords t) (0 : Fin 2) = 8 ∧ win0_4.xsize (grid0.coords t) (1 : Fin 2) = 128)

/-- What the last tile of a half writes back is its block of the one whole-array function: row y0 of block p is row
    8 p + y0 of the array, and 8 p + y0 is a multiple of 8 exactly when y0 = 0. -/
theorem flushed_eq (f : Fin 262144 → Fin 128 → EReal) (L : BodyLaws m f) (c : Dev nD) (t : Fin cfg0.N)
    (hf : (cfg0.win 4).flush t = true) :
    (dats m 0 c).flushed 4 t = ((cfg0.win 4).blk t).view.read (Elt Ideal) (outArr f) := by
  have h31 : t.val % 32 = 31 := (flush0_4 t).mp hf
  have hN : t.val < 64 := lt_of_lt_of_eq t.isLt N64
  show (cfg0.win 4).cut (grid0.coords t) ((dats m 0 c).after 4 t) = _
  rw [after0_4, out_at_last m f L c t h31]
  funext y
  rw [View.read_apply]
  have hy0 : (y 0).val < 8 := lt_of_lt_of_eq (y 0).isLt (xsize4 t).1
  have hy1 : (y 1).val < 128 := lt_of_lt_of_eq (y 1).isLt (xsize4 t).2
  have e0 : ((((cfg0.win 4).blk t).view.emb y) (0 : Fin 2)).val = win0_4.index t 0 * 8 + 1 * (y 0).val := rfl
  have e1 : ((((cfg0.win 4).blk t).view.emb y) (1 : Fin 2)).val = win0_4.index t 1 * 128 + 1 * (y 1).val := rfl
  rw [(idx4 t).1] at e0
  rw [(idx4 t).2] at e1
  refine (L.cell (fun _ => accOf f t.val) (win0_4.xinj (grid0.coords t) y)).trans ?_
  show (if (y 0).val = 0 ∧ (y 1).val = 0 then accOf f t.val else c0)
     = (if ((((cfg0.win 4).blk t).view.emb y) (0 : Fin 2)).val % 8 = 0 ∧ ((((cfg0.win 4).blk t).view.emb y) (1 : Fin 2)).val = 0
        then accOf f (32 * (((((cfg0.win 4).blk t).view.emb y) (0 : Fin 2)).val / 8) + 31) else c0)
  rw [e0, e1]
  by_cases hc : (y 0).val = 0 ∧ (y 1).val = 0
  · rw [if_pos hc, if_pos (by omega)]
    congr 1
    omega
  · rw [if_neg hc, if_neg (by omega)]

/-- The two written blocks cover the array, so it ends as the one function. -/
theorem arr_eq (f : Fin 262144 → Fin 128 → EReal) (L : BodyLaws m f) (c : Dev nD) :
    (dats m 0 c).arrAt 4 cfg0.N = outArr f :=
  (dats m 0 c).arrAt_eq_of_cover 4 (outArr f) (flushed_eq m f L c) fun i => by
    have hi0 : (i 0 : Nat) < 16 := (i 0).isLt
    have hi1 : (i 1 : Nat) < 128 := (i 1).isLt
    have hlt : 32 * ((i 0 : Nat) / 8) + 31 < cfg0.N := by rw [N64]; omega
    refine ⟨⟨32 * ((i 0 : Nat) / 8) + 31, hlt⟩, (flush0_4 _).mpr (by show (32 * ((i 0 : Nat) / 8) + 31) % 32 = 31; omega), ?_⟩
    show i ∈ ((View.whole main_v26).slice (win0_4.rect ⟨32 * ((i 0 : Nat) / 8) + 31, hlt⟩)).set
    rw [View.set_slice_whole, Rect.mem_set_unit]
    intro a
    match a with
    | ⟨0, _⟩ =>
      show win0_4.index ⟨32 * ((i 0 : Nat) / 8) + 31, hlt⟩ 0 * win0_4.size 0 ≤ (i 0 : Nat) ∧ (i 0 : Nat) < win0_4.index ⟨32 * ((i 0 : Nat) / 8) + 31, hlt⟩ 0 * win0_4.size 0 + win0_4.xsize (grid0.coords ⟨32 * ((i 0 : Nat) / 8) + 31, hlt⟩) 0
      rw [(idx4 _).1, (xsize4 _).1, show win0_4.size 0 = 8 from rfl]
      show (32 * ((i 0 : Nat) / 8) + 31) / 32 * 8 ≤ (i 0 : Nat) ∧ (i 0 : Nat) < (32 * ((i 0 : Nat) / 8) + 31) / 32 * 8 + 8
      omega
    | ⟨1, _⟩ =>
      show win0_4.index ⟨32 * ((i 0 : Nat) / 8) + 31, hlt⟩ 1 * win0_4.size 1 ≤ (i 1 : Nat) ∧ (i 1 : Nat) < win0_4.index ⟨32 * ((i 0 : Nat) / 8) + 31, hlt⟩ 1 * win0_4.size 1 + win0_4.xsize (grid0.coords ⟨32 * ((i 0 : Nat) / 8) + 31, hlt⟩) 1
      rw [(idx4 _).2, (xsize4 _).2]
      omega

end Cert.KernelIdeal.OutArray

end
-- ==== Proof.KTile.lean ====
/-
  One grid point's arithmetic, as sums of the per-element terms.

  A grid point reads 4096 re-laid rows of 128 lanes of logits and labels, the row of group-0 flags and the 128 x 128
  table. It forms the focal loss of every element; the label sums, as the product of the label rows against the table
  into zero; the mask from the sums and the flags; and adds the masked losses, lanes first and then rows, onto the
  carried accumulator. Here each of those values is read at an index: the loss chain is the shared `kLoss`, the
  product is the sum over the contracted lane, the mask chain is the shared `kMask`, and the two reductions are the
  double sum. The accumulator's restart is zero, and the cell written at a half's end holds the accumulator at its
  corner and zero elsewhere.
-/
import proofs.«419825_j37220186587138_3_alg».proof.Proof.Gen.KernelIdeal.Skeleton
import proofs.«419825_j37220186587138_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Cert.KernelIdeal Cert.KernelIdeal.Gen Cert.Focal Idealize.ShloMosaic Idealize.ShloMosaic.ValueIdx
open scoped BigOperators

/-! ## The loss of one element -/

/-- The elementwise chain of the loss, read at row `row` and lane `l`, is the focal loss of that logit and label. -/
theorem loss_apply (x0 x1 : Vec Ideal S4096x128 .f32) (row : Fin 4096) (l : Fin 128) :
    k0_pay5 (F := Ideal) x0 x1 (ix2 row l) = kLoss (x0 (ix2 row l)) (x1 (ix2 row l)) := by
  unfold k0_pay5 k0_pay4
  simp only [shapeCast_self]
  rfl

/-! ## The label sums: the product against the table, read at one row and lane -/

/-- On the left operand's row axis the product's index keeps the output's row. -/
theorem lhs_mm_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

/-- On the left operand's lane axis it is the contraction's coordinate. -/
theorem lhs_mm_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q

/-- On the table's row axis it is the contraction's coordinate. -/
theorem rhs_mm_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q

/-- On the table's column axis the product's index keeps the output's lane. -/
theorem rhs_mm_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The product of the label rows against the table, into zero, at row `row` and lane `l`: the row of labels against
    the table's column `l`. -/
theorem sums_apply (x1 : Vec Ideal S4096x128 .f32) (x3 : Vec Ideal S128x128 .bf16) (row : Fin 4096) (l : Fin 128) :
    k0_pay6 (F := Ideal) x1 x3 (ix2 row l) = ∑ k : Fin 128, x1 (ix2 row k) * x3 (ix2 k l) := by
  unfold k0_pay6 k0_pay4
  simp only [shapeCast_self, matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 row l) ((contrEquiv1 dot_S4096x128_S128x128_S4096x128_1_0_0_1_n_n 128 rfl rfl).symm k) = ix2 row k :=
    funext fun a => Fin.ext (by
      match a with
      | ⟨0, _⟩ => exact lhs_mm_0 _ _
      | ⟨1, _⟩ => exact (lhs_mm_1 _ _).trans hk)
  have er : dot_S4096x128_S128x128_S4096x128_1_0_0_1_n_n.rhsIdx (ix2 row l) ((contrEquiv1 dot_S4096x128_S128x128_S4096x128_1_0_0_1_n_n 128 rfl rfl).symm k) = ix2 k l :=
    funext fun a => Fin.ext (by
      match a with
      | ⟨0, _⟩ => exact (rhs_mm_0 _ _).trans hk
      | ⟨1, _⟩ => exact rhs_mm_1 _ _)
  rw [el, er]
  rfl

/-! ## The two sums of one grid point: lanes first, then rows -/

/-- The sum over the lanes, at row `r`. -/
theorem lanes_sum (src : FVec Ideal S4096x128 .f32) (h : S4096x128.Reduces [1] S4096) (hφ : FKind.Formats .f32)
    (hacc : (0x00000000#32 : BitVec FTy.f32.bits) = FKind.add.neutral .f32 hφ) (r : Fin 4096) :
    multiReduction (F := Ideal) .add [1] S4096 src 0x00000000#32 h hφ hacc (ix1 r) = ∑ l : Fin 128, src (ix2 r l) :=
  (Ideal.multiReduction_add_single src _ h hφ hacc (ix1 r)).trans
    (Finset.sum_congr rfl fun l _ => congrArg src (funext fun a => Fin.ext (by
      match a with
      | ⟨0, _⟩ => rfl
      | ⟨1, _⟩ => rfl)))

/-- A vector of 4096 entries viewed as a column reads, at `(r, u)`, its entry `r`. -/
theorem column_apply {α : Type} (v : S4096.Idx → α) (h : S4096.ShapeCasts S4096x1) (r : Fin 4096) (u : Fin 1) :
    shapeCast S4096x1 v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- The sum over the rows of a column, at its one entry. -/
theorem rows_sum (src : FVec Ideal S4096x1 .f32) (h : S4096x1.Reduces [0] S1) (hφ : FKind.Formats .f32)
    (hacc : (0x00000000#32 : BitVec FTy.f32.bits) = FKind.add.neutral .f32 hφ) (u : Fin 1) :
    multiReduction (F := Ideal) .add [0] S1 src 0x00000000#32 h hφ hacc (ix1 u) = ∑ r : Fin 4096, src (ix2 r u) :=
  (Ideal.multiReduction_add_single src _ h hφ hacc (ix1 u)).trans
    (Finset.sum_congr rfl fun r _ => congrArg src (funext fun a => Fin.ext (by
      match a with
      | ⟨0, _⟩ => rfl
      | ⟨1, _⟩ => rfl)))

/-- The one index of a 1 x 1 array. -/
theorem eq_origin (j : S1x1.Idx) : j = ix2 (0 : Fin 1) (0 : Fin 1) :=
  funext fun a => Fin.ext (by
    match a with
    | ⟨0, _⟩ => show (j 0).val = 0; have := idx2_lt0 j; omega
    | ⟨1, _⟩ => show (j 1).val = 0; have := idx2_lt1 j; omega)

/-! ## One grid point -/

/-- One grid point's stored value over any loss array and label-sum array: the carried accumulator plus, lanes first
    and then rows, each loss times its mask (the flag row broadcast down the rows, else the sign of the label sum as a
    number; times 3/2). -/
theorem acc_step (loss sums : FVec Ideal S4096x128 .f32) (x2 : Vec Ideal S1x128 .f32) (acc : Vec Ideal S1x1 .f32) :
    k0_pay1 (F := Ideal) loss sums (Scalar.ofBits .f32 0x00000000#32) x2 acc
      = fun _ => acc (ix2 0 0) + ∑ row : Fin 4096, ∑ l : Fin 128,
          loss (ix2 row l) * kMask (sums (ix2 row l)) (x2 (ix2 0 l)) := by
  funext j
  obtain rfl := eq_origin j
  unfold k0_pay1
  simp only [shapeCast_self]
  refine congrArg (acc (ix2 0 0) + ·) ?_
  refine (shapeCast_a_1a_apply _ _ 0 0).trans ?_
  refine (rows_sum _ _ _ _ 0).trans ?_
  refine Finset.sum_congr rfl fun row _ => ?_
  refine (column_apply _ _ row 0).trans ?_
  refine (lanes_sum _ _ _ _ row).trans ?_
  refine Finset.sum_congr rfl fun l _ => ?_
  refine congrArg (loss (ix2 row l) * ·) ?_
  simp only [mulf_apply, select_apply, cmpf_apply, broadcast_apply, sitofp_apply, extui_apply, broadcastTo_1b_ab_apply]
  rfl

/-- The accumulator's restart: zero. -/
theorem reset_eq : (k0_pay3 (F := Ideal) : S1x1.Idx → EReal) = fun _ => c0 := by
  unfold k0_pay3
  simp only [shapeCast_self]
  rfl

/-- What one grid point stores: the carried accumulator plus, lanes first and then rows, the masked losses of its
    4096 rows of 128 lanes. -/
theorem tile_eq (x0 x1 : Vec Ideal S4096x128 .f32) (x2 : Vec Ideal S1x128 .f32) (x3 : Vec Ideal S128x128 .bf16)
    (acc : Vec Ideal S1x1 .f32) :
    k0_pay1 (F := Ideal) (k0_pay5 x0 x1) (k0_pay6 x1 x3) (Scalar.ofBits .f32 0x00000000#32) x2 acc
      = fun _ => acc (ix2 0 0) + ∑ row : Fin 4096, ∑ l : Fin 128,
          kLoss (x0 (ix2 row l)) (x1 (ix2 row l))
            * kMask (∑ k : Fin 128, x1 (ix2 row k) * x3 (ix2 k l)) (x2 (ix2 0 l)) :=
  (acc_step (k0_pay5 x0 x1) (k0_pay6 x1 x3) x2 acc).trans (funext fun _ => congrArg (acc (ix2 0 0) + ·)
    (Finset.sum_congr rfl fun row _ => Finset.sum_congr rfl fun l _ => by
      rw [loss_apply, sums_apply]))

/-! ## The output cell -/

/-- A coordinate, as a 32-bit word, is the zero word exactly when it is zero. -/
theorem coord_eq_zero (n : Nat) (hn : n < 4294967296) :
    IntOp.cmpi .eq (BitVec.ofNat 32 n) 0#32 = if n = 0 then 1#1 else 0#1 := by
  unfold IntOp.cmpi
  by_cases h : n = 0
  · subst h; rfl
  · rw [if_neg h]
    have hne : (BitVec.ofNat 32 n == 0#32) = false := by
      rw [beq_eq_false_iff_ne]
      intro e
      have e' := congrArg BitVec.toNat e
      rw [BitVec.toNat_ofNat, Nat.mod_eq_of_lt (by omega)] at e'
      exact h e'
    show BitVec.ofBool (BitVec.ofNat 32 n == 0#32) = 0#1
    rw [hne]; rfl

/-- The output cell a half's last grid point writes: the accumulator at the cell's corner, zero elsewhere. -/
theorem cell_eq (acc : Vec Ideal S1x1 .f32) (j : S8x128.Idx) :
    k0_pay2 (F := Ideal) acc j = if (j 0).val = 0 ∧ (j 1).val = 0 then acc (ix2 0 0) else c0 := by
  obtain ⟨p, q, rfl⟩ : ∃ (p : Fin 8) (q : Fin 128), j = ix2 p q := ⟨j 0, j 1, eq_ix2 j⟩
  have hcorner : (fun a => (⟨(![0, 0] : Fin 2 → Nat) a, inpos_S1x1_p0_0 a⟩ : S1x1.Coord a)) = ix2 (0 : Fin 1) (0 : Fin 1) :=
    funext fun a => Fin.ext (by
      match a with
      | ⟨0, _⟩ => rfl
      | ⟨1, _⟩ => rfl)
  unfold k0_pay2
  show Scalar.select (IntOp.andi (IntOp.cmpi .eq (iota .tc S8x128 32 [0] iota_S8x128_d0_w32 (ix2 p q)) 0#32)
      (IntOp.cmpi .eq (iota .tc S8x128 32 [1] iota_S8x128_d1_w32 (ix2 p q)) 0#32))
      (extractAt ![0, 0] acc inpos_S1x1_p0_0) c0 = if p.val = 0 ∧ q.val = 0 then acc (ix2 0 0) else c0
  rw [iota_single_apply, iota_single_apply]
  show Scalar.select (IntOp.andi (IntOp.cmpi .eq (BitVec.ofNat 32 p.val) 0#32)
      (IntOp.cmpi .eq (BitVec.ofNat 32 q.val) 0#32)) (extractAt ![0, 0] acc inpos_S1x1_p0_0) c0 = _
  rw [coord_eq_zero p.val (by omega), coord_eq_zero q.val (by omega)]
  unfold extractAt
  rw [hcorner]
  by_cases hp : p.val = 0 <;> by_cases hq : q.val = 0 <;> simp [hp, hq, Scalar.select, IntOp.andi]

end Cert.KernelIdeal.TileValue

end
-- ==== Proof.KHost.lean ====
/-
  What the host lines before the launch leave in the four arrays the launch reads.

  The two data arrays are the arguments read in another arrangement: the row-major reshape of [524288, 64] to
  [262144, 128] puts samples 2 r and 2 r + 1 side by side in row r, so lane l of row r is sample 2 r + l / 64,
  class l % 64.  The flag row is the 0/1 number of "this class's group word is 0", computed on the 64 classes and
  laid twice over the 128 lanes: lane l reads class l % 64.  The table is the Kronecker product of the 2 x 2 identity
  with the 64 x 64 table "the one-hot rows of two classes meet": at row k, column l it is the identity at the halves
  of k and l times the one-hot product at their classes, which is the block-diagonal table of the specification.
  The narrowing of the table to bf16 changes nothing at the ideal values.
-/
import proofs.«419825_j37220186587138_3_alg».proof.Proof.Gen.KernelIdeal.Frame
import proofs.«419825_j37220186587138_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.StackMember
import Idealize.ShloMosaic.PureOps.Ideal.Laws

set_option maxRecDepth 16384

noncomputable section

namespace Cert.KernelIdeal.HostRead

open Cert.KernelIdeal Cert.KernelIdeal.Gen Cert.Focal
open Idealize.ShloMosaic Idealize.ShloMosaic.ValueIdx Idealize.ShloMosaic.TcCoe Idealize.SL.Sem
open scoped BigOperators

/-! ## The layout operations read at an index -/

/-- The row-major reshape of [524288, 64] to [262144, 128]: row r, lane l is flat position 128 r + l, which is
    sample 2 r + l / 64, class l % 64. -/
theorem reshape_relaid (a : Arr) (h : S524288x64.ShapeCasts S262144x128) (j : S262144x128.Idx) :
    shapeCast S262144x128 a h j = relaid a (j 0) (j 1) := by
  unfold relaid
  refine shapeCast_apply a h j _ ?_
  rw [Shape.rowMajor_val_two, Shape.rowMajor_val_two]
  show (2 * (j 0).val + (j 1).val / 64) * 64 + (j 1).val % 64 = (j 0).val * 128 + (j 1).val
  omega

/-- The group-0 flags laid over 128 lanes: [64] → [1,64] → [1,1,1,64], the third axis doubled, then [1,128]: lane l
    reads class l % 64. -/
theorem flags_apply (g : Grp) (hz : S_.BroadcastsInDim S64 (![] : Fin 0 → Fin S64.rank))
    (h1 : S64.ShapeCasts S1x64) (h2 : S1x64.ShapeCasts S1x1x1x64)
    (hb : S1x1x1x64.BroadcastsInDim S1x1x2x64 (![0, 1, 2, 3] : Fin 4 → Fin S1x1x2x64.rank))
    (h3 : S1x1x2x64.ShapeCasts S1x128) (j : S1x128.Idx) :
    shapeCast S1x128
      (broadcastInDim S1x1x2x64 ![0, 1, 2, 3] hb fun i =>
        shapeCast S1x1x1x64
          (fun i => shapeCast S1x64
            (uitofp (F := Ideal) FTy.f32 (cmpi CmpIPredicate.eq g (broadcastInDim S64 ![] hz (constantI S_ 32 0#32))))
            h1 i)
          h2 i)
      h3 j = g0K g (j 1) := by
  have hj0 : (j 0).val = 0 := by have h : (j 0).val < 1 := (j 0).isLt; omega
  rw [shapeCast_apply _ h3 j (ix4 (0 : Fin 1) (0 : Fin 1) (halfOf (j 1)) (colOf (j 1))) (by
    rw [Shape.rowMajor_val_four, Shape.rowMajor_val_two]
    show ((0 * 1 + 0) * 2 + (j 1).val / 64) * 64 + (j 1).val % 64 = (j 0).val * 128 + (j 1).val
    omega)]
  rw [broadcastInDim_apply _ hb _ _ (ix4 (0 : Fin 1) (0 : Fin 1) (0 : Fin 1) (colOf (j 1))) (fun a =>
    match a with | ⟨0, _⟩ => rfl | ⟨1, _⟩ => rfl | ⟨2, _⟩ => rfl | ⟨3, _⟩ => rfl)]
  show shapeCast S1x1x1x64 _ h2 (ix4 (0 : Fin 1) (0 : Fin 1) (0 : Fin 1) (colOf (j 1))) = _
  rw [shapeCast_apply _ h2 _ (ix2 (0 : Fin 1) (colOf (j 1))) (by
    rw [Shape.rowMajor_val_four, Shape.rowMajor_val_two]
    show 0 * 64 + (j 1).val % 64 = ((0 * 1 + 0) * 1 + 0) * 64 + (j 1).val % 64
    omega)]
  show shapeCast S1x64 _ h1 (ix2 (0 : Fin 1) (colOf (j 1))) = _
  rw [shapeCast_a_1a_apply]
  rfl

/-- The one-hot table as the host lines build it — the group words broadcast along a new axis of 8 against the
    numbers 0..7 broadcast along the classes — reads, at class c and number k, "class c is in group k". -/
theorem onehot_apply (g : Grp)
    (h3 : S64.BroadcastsInDim S64x1 (![0] : Fin 1 → Fin S64x1.rank))
    (h4 : S8.BroadcastsInDim S1x8 (![1] : Fin 1 → Fin S1x8.rank))
    (h5 : S64x1.BroadcastsInDim S64x8 (![0, 1] : Fin 2 → Fin S64x8.rank))
    (h6 : S1x8.BroadcastsInDim S64x8 (![0, 1] : Fin 2 → Fin S64x8.rank)) (c : Fin 64) (k : Fin 8) :
    uitofp (F := Ideal) FTy.f32
      (cmpi CmpIPredicate.eq (broadcastInDim S64x8 ![0, 1] h5 (broadcastInDim S64x1 ![0] h3 g))
        (broadcastInDim S64x8 ![0, 1] h6 (broadcastInDim S1x8 ![1] h4 (iotaInDim S8 32 0)))) (ix2 c k) = oh g c k := by
  show (((IntOp.cmpi .eq (broadcastInDim S64x8 ![0, 1] h5 (broadcastInDim S64x1 ![0] h3 g) (ix2 c k))
      (broadcastInDim S64x8 ![0, 1] h6 (broadcastInDim S1x8 ![1] h4 (iotaInDim S8 32 0)) (ix2 c k))).toNat : ℝ) : EReal) = _
  rw [broadcastInDim_apply _ h5 _ (ix2 c k) (ix2 c (0 : Fin 1)) (fun a => match a with | ⟨0, _⟩ => rfl | ⟨1, _⟩ => rfl),
    broadcastInDim_apply _ h3 _ (ix2 c (0 : Fin 1)) (ix1 c) (fun a => match a with | ⟨0, _⟩ => rfl),
    broadcastInDim_apply _ h6 _ (ix2 c k) (ix2 (0 : Fin 1) k) (fun a => match a with | ⟨0, _⟩ => rfl | ⟨1, _⟩ => rfl),
    broadcastInDim_apply _ h4 _ (ix2 (0 : Fin 1) k) (ix1 k) (fun a => match a with | ⟨0, _⟩ => rfl)]
  rfl

/-- The one-hot table against its transpose: at classes c, c' the number of groups 0..7 both are in. -/
theorem sg_apply (g : Grp)
    (h3 : S64.BroadcastsInDim S64x1 (![0] : Fin 1 → Fin S64x1.rank))
    (h4 : S8.BroadcastsInDim S1x8 (![1] : Fin 1 → Fin S1x8.rank))
    (h5 : S64x1.BroadcastsInDim S64x8 (![0, 1] : Fin 2 → Fin S64x8.rank))
    (h6 : S1x8.BroadcastsInDim S64x8 (![0, 1] : Fin 2 → Fin S64x8.rank))
    (ht : S64x8.Transposes [1, 0] S8x64) (c c' : Fin 64) :
    Host.dotGeneral dot_S64x8_S8x64_S64x64_1_0_0_1_n_n none
      (uitofp (F := Ideal) FTy.f32
        (cmpi CmpIPredicate.eq (broadcastInDim S64x8 ![0, 1] h5 (broadcastInDim S64x1 ![0] h3 g))
          (broadcastInDim S64x8 ![0, 1] h6 (broadcastInDim S1x8 ![1] h4 (iotaInDim S8 32 0)))))
      (transpose S8x64 [1, 0]
        (uitofp (F := Ideal) FTy.f32
          (cmpi CmpIPredicate.eq (broadcastInDim S64x8 ![0, 1] h5 (broadcastInDim S64x1 ![0] h3 g))
            (broadcastInDim S64x8 ![0, 1] h6 (broadcastInDim S1x8 ![1] h4 (iotaInDim S8 32 0)))))
        ht) (ix2 c c') = sameK g c c' := by
  have hD : dot_S64x8_S8x64_S64x64_1_0_0_1_n_n = DotDims.plain 64 8 64 := rfl
  rw [hD, StackMember.dotGeneral_plain_apply]
  unfold sameK
  refine Finset.sum_congr rfl fun k _ => ?_
  rw [transpose_ix2_apply, onehot_apply, onehot_apply]

/-- The 2 x 2 identity as the host lines build it: row number plus zero against column number. -/
theorem eye_apply (hs : S_.BroadcastsInDim S2x2 (![] : Fin 0 → Fin S2x2.rank)) (a a' : Fin 2) :
    uitofp (F := Ideal) FTy.f32
      (cmpi CmpIPredicate.eq (addi (iotaInDim S2x2 32 0) (broadcastInDim S2x2 ![] hs (constantI S_ 32 0#32)))
        (iotaInDim S2x2 32 1)) (ix2 a a') = eye2 a a' := rfl

/-- The Kronecker product of a 2 x 2 by a 64 x 64 table — each broadcast over the other's axes of [2, 64, 2, 64],
    multiplied, and read as [128, 128] — at row k, column l: the small table at the halves of k and l times the
    large one at their classes, since (a, c, a', c') sits at flat position 128 (64 a + c) + (64 a' + c'). -/
theorem kron_apply (X : S2x2.Idx → EReal) (Y : S64x64.Idx → EReal)
    (hX0 : S2x2.BroadcastsInDim S2x1x2x1 (![0, 2] : Fin 2 → Fin S2x1x2x1.rank))
    (hY0 : S64x64.BroadcastsInDim S1x64x1x64 (![1, 3] : Fin 2 → Fin S1x64x1x64.rank))
    (hX : S2x1x2x1.BroadcastsInDim S2x64x2x64 (![0, 1, 2, 3] : Fin 4 → Fin S2x64x2x64.rank))
    (hY : S1x64x1x64.BroadcastsInDim S2x64x2x64 (![0, 1, 2, 3] : Fin 4 → Fin S2x64x2x64.rank))
    (hc : S2x64x2x64.ShapeCasts S128x128) (j : S128x128.Idx) :
    shapeCast S128x128
      (mulf (F := Ideal) (φ := FTy.f32)
        (broadcastInDim S2x64x2x64 ![0, 1, 2, 3] hX (broadcastInDim S2x1x2x1 ![0, 2] hX0 X))
        (broadcastInDim S2x64x2x64 ![0, 1, 2, 3] hY (broadcastInDim S1x64x1x64 ![1, 3] hY0 Y))) hc j
      = X (ix2 (halfOf (j 0)) (halfOf (j 1))) * Y (ix2 (colOf (j 0)) (colOf (j 1))) := by
  rw [shapeCast_apply _ hc j (ix4 (halfOf (j 0)) (colOf (j 0)) (halfOf (j 1)) (colOf (j 1))) (by
    rw [Shape.rowMajor_val_four, Shape.rowMajor_val_two]
    show (((j 0).val / 64 * 64 + (j 0).val % 64) * 2 + (j 1).val / 64) * 64 + (j 1).val % 64 = (j 0).val * 128 + (j 1).val
    omega)]
  rw [mulf_apply,
    broadcastInDim_apply _ hX _ _ (ix4 (halfOf (j 0)) (0 : Fin 1) (halfOf (j 1)) (0 : Fin 1))
      (fun a => match a with | ⟨0, _⟩ => rfl | ⟨1, _⟩ => rfl | ⟨2, _⟩ => rfl | ⟨3, _⟩ => rfl),
    broadcastInDim_apply _ hX0 _ _ (ix2 (halfOf (j 0)) (halfOf (j 1)))
      (fun a => match a with | ⟨0, _⟩ => rfl | ⟨1, _⟩ => rfl),
    broadcastInDim_apply _ hY _ _ (ix4 (0 : Fin 1) (colOf (j 0)) (0 : Fin 1) (colOf (j 1)))
      (fun a => match a with | ⟨0, _⟩ => rfl | ⟨1, _⟩ => rfl | ⟨2, _⟩ => rfl | ⟨3, _⟩ => rfl),
    broadcastInDim_apply _ hY0 _ _ (ix2 (colOf (j 0)) (colOf (j 1)))
      (fun a => match a with | ⟨0, _⟩ => rfl | ⟨1, _⟩ => rfl)]

/-! ## The four arrays after the host lines -/

variable (m : (ℓ : Loc nD τ sig) → Buf (Elt Ideal) ℓ)

/-- The logits as the launch finds them: the first argument, re-laid. -/
theorem V_logits (c : Dev nD) : (V m c main_v0 : S262144x128.Idx → EReal) = fun j => relaid (m ((c : Thread nD τ).loc main_arg0)) (j 0) (j 1) := by
  dsimp only [Gen.V, Gen.V0]
  simp only [Gen.hostOps0, Gen.hostOps0_1, Gen.hostOps0_2, List.flatten_cons, List.flatten_nil, List.append_nil, List.cons_append, List.nil_append]
  after_results_simp
  funext j
  exact reshape_relaid _ _ j

/-- The labels as the launch finds them: the second argument, re-laid. -/
theorem V_labels (c : Dev nD) : (V m c main_v1 : S262144x128.Idx → EReal) = fun j => relaid (m ((c : Thread nD τ).loc main_arg1)) (j 0) (j 1) := by
  dsimp only [Gen.V, Gen.V0]
  simp only [Gen.hostOps0, Gen.hostOps0_1, Gen.hostOps0_2, List.flatten_cons, List.flatten_nil, List.append_nil, List.cons_append, List.nil_append]
  after_results_simp
  funext j
  exact reshape_relaid _ _ j

/-- The flag row as the launch finds it: each lane's class has group word 0, as a 0/1 number. -/
theorem V_flags (c : Dev nD) : (V m c main_v25 : S1x128.Idx → EReal) = fun j => g0K (m ((c : Thread nD τ).loc main_arg2)) (j 1) := by
  dsimp only [Gen.V, Gen.V0]
  simp only [Gen.hostOps0, Gen.hostOps0_1, Gen.hostOps0_2, List.flatten_cons, List.flatten_nil, List.append_nil, List.cons_append, List.nil_append]
  after_results_simp
  funext j
  exact flags_apply _ _ _ _ _ _ j

/-- The table as the launch finds it: the block-diagonal table of "same group" counts. -/
theorem V_table (c : Dev nD) : (V m c main_v18 : S128x128.Idx → EReal) = fun j => blockDiag (m ((c : Thread nD τ).loc main_arg2)) (j 0) (j 1) := by
  dsimp only [Gen.V, Gen.V0]
  simp only [Gen.hostOps0, Gen.hostOps0_1, Gen.hostOps0_2, List.flatten_cons, List.flatten_nil, List.append_nil, List.cons_append, List.nil_append]
  after_results_simp
  simp only [StableHlo.TRef.ofBuf, StableHlo.TRef.toBuf, cast_eq]
  funext j
  rw [truncf_apply]
  refine (kron_apply _ _ _ _ _ _ _ j).trans ?_
  rw [eye_apply, sg_apply]
  rfl

end Cert.KernelIdeal.HostRead

end
-- ==== Proof.KBody.lean ====
/-
  One tile's arithmetic in the specification's terms.

  At grid point t the body finds rows 4096 t .. 4096 t + 4095 of the re-laid logits and labels, the whole group-0
  flag row and the whole same-group table.  Read through those blocks, a tile's sum of products "loss x mask" is the
  sum over the tile's rows and the 128 lanes of the specification's per-element term, whose label sum is the row of
  re-laid labels against a column of the table.
-/
import proofs.«419825_j37220186587138_3_alg».proof.Proof.KFinal
import proofs.«419825_j37220186587138_3_alg».proof.Proof.KTile
import proofs.«419825_j37220186587138_3_alg».proof.Proof.KHost

set_option maxRecDepth 16384

noncomputable section

namespace Cert.KernelIdeal.Body

open Cert.KernelIdeal Cert.KernelIdeal.Gen Cert.KernelIdeal.Accum Cert.KernelIdeal.OutArray Cert.KernelIdeal.TileValue
open Cert.KernelIdeal.HostRead Cert.Focal
open Idealize.ShloMosaic Idealize.ShloMosaic.TcCoe Idealize.ShloMosaic.ValueIdx
open Idealize.SL Idealize.SL.Sem

variable (m : (ℓ : Loc nD τ sig) → Buf (Elt Ideal) ℓ)

/-- The three inputs as the launch finds them on core c. -/
abbrev logits (c : Dev nD) : Arr := m ((c : Thread nD τ).loc main_arg0)
abbrev labels (c : Dev nD) : Arr := m ((c : Thread nD τ).loc main_arg1)
abbrev groups (c : Dev nD) : Grp := m ((c : Thread nD τ).loc main_arg2)

/-- The windows' block indices at point t: the data windows walk the tiles, the flag row and the table stay put. -/
theorem idxIn : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0) :=
  (by decide +kernel : ∀ t : Fin grid0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0))

/-- Row `row`, lane l of the logits' block at point t is the re-laid logits at row 4096 t + row, lane l. -/
theorem xblk_apply (c : Dev nD) (t : Fin cfg0.N) (row : Fin 4096) (l : Fin 128) :
    xblk m c t (ix2 row l) = relaid (logits m c) (tileRow t.val row) l := by
  have hN : t.val < 64 := lt_of_lt_of_eq t.isLt N64
  unfold xblk iblk
  rw [View.read_apply]
  show (V m c main_v0 : S262144x128.Idx → EReal) (((cfg0.win 0).blk t).view.emb (ix2 row l)) = _
  rw [V_logits m c]
  show relaid (logits m c) ((((cfg0.win 0).blk t).view.emb (ix2 row l)) 0) ((((cfg0.win 0).blk t).view.emb (ix2 row l)) 1) = _
  congr 1
  · apply Fin.ext
    show win0_0.index t 0 * 4096 + 1 * row.val = (4096 * t.val + row.val) % 262144
    rw [(idxIn t).1.1]; omega
  · apply Fin.ext
    show win0_0.index t 1 * 128 + 1 * l.val = l.val
    rw [(idxIn t).1.2]; omega

/-- The same for the labels. -/
theorem tblk_apply (c : Dev nD) (t : Fin cfg0.N) (row : Fin 4096) (l : Fin 128) :
    tblk m c t (ix2 row l) = relaid (labels m c) (tileRow t.val row) l := by
  have hN : t.val < 64 := lt_of_lt_of_eq t.isLt N64
  unfold tblk iblk
  rw [View.read_apply]
  show (V m c main_v1 : S262144x128.Idx → EReal) (((cfg0.win 1).blk t).view.emb (ix2 row l)) = _
  rw [V_labels m c]
  show relaid (labels m c) ((((cfg0.win 1).blk t).view.emb (ix2 row l)) 0) ((((cfg0.win 1).blk t).view.emb (ix2 row l)) 1) = _
  congr 1
  · apply Fin.ext
    show win0_1.index t 0 * 4096 + 1 * row.val = (4096 * t.val + row.val) % 262144
    rw [(idxIn t).2.1.1]; omega
  · apply Fin.ext
    show win0_1.index t 1 * 128 + 1 * l.val = l.val
    rw [(idxIn t).2.1.2]; omega

/-- The flag row's block is the whole row. -/
theorem fblk_apply (c : Dev nD) (t : Fin cfg0.N) (l : Fin 128) :
    fblk m c t (ix2 0 l) = g0K (groups m c) l := by
  unfold fblk iblk
  rw [View.read_apply]
  show (V m c main_v25 : S1x128.Idx → EReal) (((cfg0.win 2).blk t).view.emb (ix2 0 l)) = _
  rw [V_flags m c]
  show g0K (groups m c) ((((cfg0.win 2).blk t).view.emb (ix2 0 l)) 1) = _
  congr 1
  apply Fin.ext
  show win0_2.index t 1 * 128 + 1 * l.val = l.val
  rw [(idxIn t).2.2.1.2]; omega

/-- The table's block is the whole table. -/
theorem mblk_apply (c : Dev nD) (t : Fin cfg0.N) (k l : Fin 128) :
    mblk m c t (ix2 k l) = blockDiag (groups m c) k l := by
  unfold mblk iblk
  rw [View.read_apply]
  show (V m c main_v18 : S128x128.Idx → EReal) (((cfg0.win 3).blk t).view.emb (ix2 k l)) = _
  rw [V_table m c]
  show blockDiag (groups m c) ((((cfg0.win 3).blk t).view.emb (ix2 k l)) 0) ((((cfg0.win 3).blk t).view.emb (ix2 k l)) 1) = _
  congr 1
  · apply Fin.ext
    show win0_3.index t 0 * 128 + 1 * k.val = k.val
    rw [(idxIn t).2.2.2.1]; omega
  · apply Fin.ext
    show win0_3.index t 1 * 128 + 1 * l.val = l.val
    rw [(idxIn t).2.2.2.2]; omega

/-- The body's laws over the specification's per-element term. -/
theorem laws (c₀ : Dev nD) (hc : ∀ c : Dev nD, c = c₀) :
    BodyLaws m (kTerm (logits m c₀) (labels m c₀) (groups m c₀)) where
  reset := reset_eq
  cell := cell_eq
  tile := fun c t acc => by
    obtain rfl := hc c
    show k0_pay1 (F := Ideal) (k0_pay5 (xblk m c t) (tblk m c t)) (k0_pay6 (tblk m c t) (mblk m c t)) (Scalar.ofBits .f32 0x00000000#32) (fblk m c t) acc = _
    rw [tile_eq]
    funext _
    refine congrArg (acc (ix2 0 0) + ·) ?_
    unfold tileSum
    refine Finset.sum_congr rfl fun row _ => Finset.sum_congr rfl fun l _ => ?_
    unfold kTerm pcsK
    rw [xblk_apply, tblk_apply, fblk_apply]
    congr 2
    exact Finset.sum_congr rfl fun k _ => by rw [tblk_apply, mblk_apply]

end Cert.KernelIdeal.Body

end
-- ==== Proof.KTail.lean ====
/-
  The kernel's result: the host lines after the launch.

  They take cell (0, 0) and cell (8, 0) of the 16 x 128 output array (the two halves' accumulators), add them, and
  divide by the number of elements.
-/
import proofs.«419825_j37220186587138_3_alg».proof.Proof.KFinal
import Idealize.ShloMosaic.Lib.StableHlo.Run
import Idealize.ShloMosaic.Lib.Pipeline.Value

set_option maxRecDepth 16384

noncomputable section

namespace Cert.KernelIdeal.Tail

open Cert.KernelIdeal Cert.KernelIdeal.Gen Cert.KernelIdeal.Accum Cert.KernelIdeal.OutArray Cert.Focal
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- A 1 x 1 slice at row r, column 0, read as a scalar, is the array's cell (r, 0). -/
theorem cell_of_slice (G : S16x128.Idx → EReal) (r : Fin 16) (off : Fin 2 → Nat) (hoff : off = ![r.val, 0])
    (h : S16x128.Slices off S1x1) (hc : S1x1.ShapeCasts S_) (x : S_.Idx) :
    shapeCast S_ (extractStridedSlice S1x1 off G h) hc x = G (ix2 r 0) := by
  subst hoff
  have h1 : (S1x1.rowMajor (ix2 0 0)).val < 1 := (S1x1.rowMajor (ix2 0 0)).isLt
  have h2 : (S_.rowMajor x).val < 1 := (S_.rowMajor x).isLt
  rw [shapeCast_apply _ hc x (ix2 0 0) (by omega)]
  exact extractStridedSlice_apply _ G h (ix2 0 0) (ix2 r 0) (fun a => by
    match a with
    | ⟨0, _⟩ => rfl
    | ⟨1, _⟩ => rfl)

/-- After the host lines that follow the launch, the result holds the two halves' accumulators added, over the count. -/
theorem result_eq (f : Fin 262144 → Fin 128 → EReal) (L : BodyLaws m f) (c : Dev nD) :
    (Pipeline.afterTail₀ cfgs (dats m) 0 (V0 m) [hostOps1] c main_v32 : S_.Idx → EReal)
      = fun _ => Ideal.div (accOf f 31 + accOf f 63) cN := by
  unfold Pipeline.afterTail₀
  show StableHlo.after hostOps1 _ (Proc.devRef .tc main_v32) = _
  after_results
  have hA : Pipeline.withArrays (cfgs 0).spec c (V0 m c) (fun w => (dats m 0 c).arrAt w (cfgs 0).N) (Proc.tc.devRef main_v26) = outArr f :=
    (Pipeline.withArrays_arr spec0 launch0.win.arr_inj c _ _ 4).trans (arr_eq m f L c)
  rw [hA]
  funext x
  show Ideal.div (shapeCast S_ (extractStridedSlice S1x1 ![0, 0] (outArr f) slices_S16x128_S1x1_0_0) shapeCasts_S1x1_S_ x
      + shapeCast S_ (extractStridedSlice S1x1 ![8, 0] (outArr f) slices_S16x128_S1x1_8_0) shapeCasts_S1x1_S_ x) cN = _
  rw [cell_of_slice (outArr f) 0 ![0, 0] rfl, cell_of_slice (outArr f) 8 ![8, 0] rfl]
  rfl

end Cert.KernelIdeal.Tail

end
-- ==== Proof.KRun.lean ====
/-
  The idealized kernel's run, with its result named: every weakly fair execution ends with the result at the
  specification's kernel-side value of the three inputs, and the inputs unchanged.
-/
import proofs.«419825_j37220186587138_3_alg».proof.Proof.KBody
import proofs.«419825_j37220186587138_3_alg».proof.Proof.KTail

set_option maxRecDepth 16384

noncomputable section

namespace Cert.KernelIdeal.ValueRun

open Cert.KernelIdeal Cert.KernelIdeal.Gen Cert.KernelIdeal.Accum Cert.KernelIdeal.OutArray Cert.KernelIdeal.Body Cert.KernelIdeal.Tail Cert.Focal
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result buffer ends at the kernel-side total; the three inputs end as they began. -/
theorem run : θ_run (defs (F := Ideal)) (onTc (τ := τ) (main (F := Ideal))) ⟨m, fun _ => 0, ρ⟩ (fun r => ∀ c : Dev nD,
      r.2.mem ((c.tc : Thread nD τ).loc main_v32) = (fun _ => kTotal (logits m c) (labels m c) (groups m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v32 (Pipeline.mem_restRefs_of main_v32 (by decide) (by decide))).trans
        (result_eq m _ (laws m c fun c' => Subsingleton.elim c' c) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ValueRun

end
-- ==== Proof.RefVal.lean ====
/-
  The reference program's result as one pure function of its three arguments.

  The program is a straight line of tensor operations; its result buffer holds, after the line has run,
  the composition of those operations applied to the arguments.  That composition is written here stage by
  stage, one `let` per operation of the program and in the program's order, the three module-local functions
  (a select, the clamped look-up, a select against a scalar) written out where they are called:

    * `lossV`   — the focal loss of every element: the stable cross-entropy, its negated exponential, one minus
                    that to the power two, times the cross-entropy;
    * `onehotV` — the 64 x 8 table "class c is in group k" as numbers;
    * `gsumV`   — the labels contracted against that table: per sample, the label sum of each group;
    * `takeV`   — each class's group sum looked up at the class's group word (a negative word wrapped by 8, a word
                    out of 0..7 giving the fill value instead);
    * `maskV`   — one where the class's group is group 0, else the 0/1 number of "the looked-up sum is positive";
                    times 3/2;
    * `totalV`  — loss times mask, summed over all elements from 0, divided by the count of elements.
-/
import proofs.«419825_j37220186587138_3_alg».proof.ReferenceIdeal

noncomputable section

namespace Cert.ReferenceIdeal.HandValue

open Cert.ReferenceIdeal Idealize.ShloMosaic

variable {F : FTy → Type} [FloatOps F] [Cert.ReferenceIdeal.Facts]

open Cert.ReferenceIdeal.Facts₀ Cert.ReferenceIdeal.Facts

/-- The focal loss of every element, from the logits `a0` and the labels `a1`. -/
def lossV (a0 a1 : FVec F S524288x64 .f32) : FVec F S524288x64 .f32 :=
  let cst : FVec F S_ .f32 := constant S_ .f32 0x00000000#32
  let v0 : FVec F S524288x64 .f32 := broadcastInDim S524288x64 ![] bcast_S_S524288x64 cst
  let v1 : FVec F S524288x64 .f32 := maximumf a0 v0
  let v2 : FVec F S524288x64 .f32 := mulf a0 a1
  let v3 : FVec F S524288x64 .f32 := subf v1 v2
  let v4 : FVec F S524288x64 .f32 := Host.absf a0
  let v5 : FVec F S524288x64 .f32 := Host.negf v4
  let v6 : FVec F S524288x64 .f32 := Host.exp v5
  let v7 : FVec F S524288x64 .f32 := Host.log1p v6
  let v8 : FVec F S524288x64 .f32 := addf v3 v7
  let v9 : FVec F S524288x64 .f32 := Host.negf v8
  let v10 : FVec F S524288x64 .f32 := Host.exp v9
  let cst_0 : FVec F S_ .f32 := constant S_ .f32 0x3F800000#32
  let v11 : FVec F S524288x64 .f32 := broadcastInDim S524288x64 ![] bcast_S_S524288x64 cst_0
  let v12 : FVec F S524288x64 .f32 := subf v11 v10
  let cst_1 : FVec F S_ .f32 := constant S_ .f32 0x40000000#32
  let v13 : FVec F S524288x64 .f32 := broadcastInDim S524288x64 ![] bcast_S_S524288x64 cst_1
  let v14 : FVec F S524288x64 .f32 := Host.powf v12 v13
  let cst_2 : FVec F S_ .f32 := constant S_ .f32 0x3F800000#32
  let v15 : FVec F S524288x64 .f32 := broadcastInDim S524288x64 ![] bcast_S_S524288x64 cst_2
  let v16 : FVec F S524288x64 .f32 := mulf v15 v14
  let v17 : FVec F S524288x64 .f32 := mulf v16 v8
  v17

/-- The one-hot table of the group words `a2` against the groups 0..7, as numbers. -/
def onehotV (a2 : IVec S64 32) : FVec F S64x8 .f32 :=
  let v18 : IVec S64x1 32 := broadcastInDim S64x1 ![0] bcast_S64_S64x1_0 a2
  let v19 : IVec S8 32 := iotaInDim S8 32 0
  let v20 : IVec S1x8 32 := broadcastInDim S1x8 ![1] bcast_S8_S1x8_1 v19
  let v21 : IVec S64x8 32 := broadcastInDim S64x8 ![0, 1] bcast_S64x1_S64x8_0_1 v18
  let v22 : IVec S64x8 32 := broadcastInDim S64x8 ![0, 1] bcast_S1x8_S64x8_0_1 v20
  let v23 : IVec S64x8 1 := cmpi .eq v21 v22
  let v24 : FVec F S64x8 .f32 := uitofp .f32 v23
  v24

/-- The labels contracted over the classes against the one-hot table: per sample, each group's label sum. -/
def gsumV (a1 : FVec F S524288x64 .f32) (a2 : IVec S64 32) : FVec F S524288x8 .f32 :=
  Host.dotGeneral dot_S524288x64_S64x8_S524288x8_1_0_0_1_n_n none a1 (onehotV a2)

/-- The look-up of the group sums `x` at the group words `a2`: a negative word is wrapped by adding 8, the
    wrapped word is tested against 0..7, the column of `x` at it is gathered, and where the test fails the
    fill value stands instead. -/
def takeV (x : FVec F S524288x8 .f32) (a2 : IVec S64 32) : FVec F S524288x64 .f32 :=
  let c : IVec S_ 32 := constantI S_ 32 0#32
  let v0 : IVec S64 32 := broadcastInDim S64 ![] bcast_S_S64 c
  let v1 : IVec S64 1 := cmpi .slt a2 v0
  let c_0 : IVec S_ 32 := constantI S_ 32 8#32
  let v2 : IVec S64 32 := broadcastInDim S64 ![] bcast_S_S64 c_0
  let v3 : IVec S64 32 := addi a2 v2
  let v4 : IVec S64 32 := select v1 v3 a2
  let v5 : IVec S64x1 32 := broadcastInDim S64x1 ![0] bcast_S64_S64x1_0 v4
  let c_1 : IVec S1 32 := constantI S1 32 7#32
  let c_2 : IVec S_ 32 := constantI S_ 32 0#32
  let v6 : IVec S64x1 32 := broadcastInDim S64x1 ![] bcast_S_S64x1 c_2
  let v7 : IVec S64x1 1 := cmpi .sge v5 v6
  let v8 : IVec S1x1 32 := broadcastInDim S1x1 ![1] bcast_S1_S1x1_1 c_1
  let v9 : IVec S64x1 32 := broadcastInDim S64x1 ![0, 1] bcast_S1x1_S64x1_0_1 v8
  let v10 : IVec S64x1 1 := cmpi .sle v5 v9
  let v11 : IVec S64x1 1 := andi v7 v10
  let c_3 : IVec S_ 1 := constantI S_ 1 1#1
  let v12 : IVec S64 1 := Host.reduce IntOp.andi v11 c_3 reducesTo_S64x1_S64_d1 h_S_
  let v13 : FVec F S524288x64 .f32 := Host.gather gather_S524288x8_S64x1_S524288x64_0_1_n_n_1_1_5242881 x v5
  let v14 : IVec S524288x64 1 := broadcastInDim S524288x64 ![1] bcast_S64_S524288x64_1 v12
  let cst : FVec F S_ .f32 := constant S_ .f32 0x7FC00000#32
  let v15 : FVec F S524288x64 .f32 := broadcastInDim S524288x64 ![] bcast_S_S524288x64 cst
  let v16 : FVec F S524288x64 .f32 := select v14 v13 v15
  v16

/-- The mask of every element from the looked-up sums `v26` and the group words `a2`, times 3/2. -/
def maskV (v26 : FVec F S524288x64 .f32) (a2 : IVec S64 32) : FVec F S524288x64 .f32 :=
  let v27 : IVec S1x64 32 := broadcastInDim S1x64 ![1] bcast_S64_S1x64_1 a2
  let c : IVec S_ 32 := constantI S_ 32 0#32
  let v28 : IVec S1x64 32 := broadcastInDim S1x64 ![] bcast_S_S1x64 c
  let v29 : IVec S1x64 1 := cmpi .eq v27 v28
  let cst_3 : FVec F S_ .f32 := constant S_ .f32 0x00000000#32
  let v30 : FVec F S524288x64 .f32 := broadcastInDim S524288x64 ![] bcast_S_S524288x64 cst_3
  let v31 : IVec S524288x64 1 := cmpf .ogt v26 v30
  let v32 : FVec F S524288x64 .f32 := uitofp .f32 v31
  let cst_4 : FVec F S_ .f32 := constant S_ .f32 0x3F800000#32
  let w0 : FVec F S_ .f32 := id cst_4
  let w1 : IVec S524288x64 1 := broadcastInDim S524288x64 ![0, 1] bcast_S1x64_S524288x64_0_1 v29
  let w2 : FVec F S524288x64 .f32 := broadcastInDim S524288x64 ![] bcast_S_S524288x64 w0
  let v33 : FVec F S524288x64 .f32 := select w1 w2 v32
  let cst_5 : FVec F S_ .f32 := constant S_ .f32 0x3FC00000#32
  let v34 : FVec F S524288x64 .f32 := broadcastInDim S524288x64 ![] bcast_S_S524288x64 cst_5
  let v35 : FVec F S524288x64 .f32 := mulf v33 v34
  v35

/-- Loss times mask, summed over both axes from 0, over the count of elements. -/
def totalV (v17 v35 : FVec F S524288x64 .f32) : FVec F S_ .f32 :=
  let v36 : FVec F S524288x64 .f32 := mulf v17 v35
  let cst_6 : FVec F S_ .f32 := constant S_ .f32 0x00000000#32
  let v37 : FVec F S_ .f32 := Host.reduceAdd v36 cst_6 reducesTo_S524288x64_S_d0_1 h_S_
  let cst_7 : FVec F S_ .f32 := constant S_ .f32 0x4C000000#32
  let v38 : FVec F S_ .f32 := Host.divf v37 cst_7
  v38

/-- The reference's value: the stages in the program's order. -/
def refVal (a0 a1 : FVec F S524288x64 .f32) (a2 : IVec S64 32) : FVec F S_ .f32 :=
  let v17 : FVec F S524288x64 .f32 := lossV a0 a1
  let v25 : FVec F S524288x8 .f32 := gsumV a1 a2
  let v26 : FVec F S524288x64 .f32 := takeV v25 a2
  let v35 : FVec F S524288x64 .f32 := maskV v26 a2
  totalV v17 v35

end Cert.ReferenceIdeal.HandValue

end
-- ==== Proof.RefRun.lean ====
/-
  The reference program runs, and ends with its result at its composed term.

  The reference is a straight line of tensor operations and three calls: the group lookup (a gather
  of the per-group label sums at each class's group word, the word first wrapped into range by a select
  between the word and the word plus eight), that lookup's select, and the select that sets the mask to one
  where the class's group is group 0.  A call means its callee's body run on the call's own buffers, so the
  whole program is one line of seventy-four operations: the callee's operations are listed where the call
  stands, over the call's buffer record.  From any memory with zero counters every weakly fair execution
  of that line terminates, and each buffer then holds the fold of the operations over the launch contents;
  read at the result buffer the fold is the program's one composed term of the three arguments, and read at
  an argument buffer it is what was there.
-/
import proofs.«419825_j37220186587138_3_alg».proof.ReferenceIdeal
import proofs.«419825_j37220186587138_3_alg».proof.Proof.Gen.ReferenceIdeal
import Idealize.ShloMosaic.Lib.StableHlo.Run
import proofs.«419825_j37220186587138_3_alg».proof.Proof.RefVal

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-- @main's seventy-four operations in order, the calls unfolded.  The first thirty are @main's own: the
    cross-entropy and the focal weight of every element (twenty-two), then the one-hot table of the group words
    against 0..7 and the label sums per group, a matrix product (eight).  The group lookup is twenty-three
    operations into the first call's buffers, with its inner select (one, into the nested call's buffer) after
    the sixth: the group word wrapped into range, the range test 0 ≤ word ≤ 7 reduced over its unit axis, the
    gather of the sums at the words, and the select between the gathered sum and the fill value by the test.
    Nine more of @main's own make the "group is group 0" bit and the "sum is positive" flag as a number; the
    second call is four (the scalar one converted to its own type and broadcast, the bit broadcast, the select);
    the last eight scale the mask by 3/2, multiply, sum every element from zero and divide by the count. -/
abbrev ops : List (HloOp τ sig (Elt F)) :=
  [ nullary main_cst (constant S_ .f32 0x00000000#32),
    unary main_cst main_v0 (broadcastInDim S524288x64 ![] bcast_S_S524288x64 : (⟨S_, .f32⟩ : BufTy).Contents (Elt F) → (⟨S524288x64, .f32⟩ : BufTy).Contents (Elt F)),
    binary main_arg0 main_v0 main_v1 (maximumf : (⟨S524288x64, .f32⟩ : BufTy).Contents (Elt F) → (⟨S524288x64, .f32⟩ : BufTy).Contents (Elt F) → (⟨S524288x64, .f32⟩ : BufTy).Contents (Elt F)),
    binary main_arg0 main_arg1 main_v2 (mulf : (⟨S524288x64, .f32⟩ : BufTy).Contents (Elt F) → (⟨S524288x64, .f32⟩ : BufTy).Contents (Elt F) → (⟨S524288x64, .f32⟩ : BufTy).Contents (Elt F)),
    binary main_v1 main_v2 main_v3 (subf : (⟨S524288x64, .f32⟩ : BufTy).Contents (Elt F) → (⟨S524288x64, .f32⟩ : BufTy).Contents (Elt F) → (⟨S524288x64, .f32⟩ : BufTy).Contents (Elt F)),
    unary main_arg0 main_v4 (Host.absf : (⟨S524288x64, .f32⟩ : BufTy).Contents (Elt F) → (⟨S524288x64, .f32⟩ : BufTy).Contents (Elt F)),
    unary main_v4 main_v5 (Host.negf : (⟨S524288x64, .f32⟩ : BufTy).Contents (Elt F) → (⟨S524288x64, .f32⟩ : BufTy).Contents (Elt F)),
    unary main_v5 main_v6 (Host.exp : (⟨S524288x64, .f32⟩ : BufTy).Contents (Elt F) → (⟨S524288x64, .f32⟩ : BufTy).Contents (Elt F)),
    unary main_v6 main_v7 (Host.log1p : (⟨S524288x64, .f32⟩ : BufTy).Contents (Elt F) → (⟨S524288x64, .f32⟩ : BufTy).Contents (Elt F)),
    binary main_v3 main_v7 main_v8 (addf : (⟨S524288x64, .f32⟩ : BufTy).Contents (Elt F) → (⟨S524288x64, .f32⟩ : BufTy).Contents (Elt F) → (⟨S524288x64, .f32⟩ : BufTy).Contents (Elt F)),
    unary main_v8 main_v9 (Host.negf : (⟨S524288x64, .f32⟩ : BufTy).Contents (Elt F) → (⟨S524288x64, .f32⟩ : BufTy).Contents (Elt F)),
    unary main_v9 main_v10 (Host.exp : (⟨S524288x64, .f32⟩ : BufTy).Contents (Elt F) → (⟨S524288x64, .f32⟩ : BufTy).Contents (Elt F)),
    nullary main_cst_0 (constant S_ .f32 0x3F800000#32),
    unary main_cst_0 main_v11 (broadcastInDim S524288x64 ![] bcast_S_S524288x64 : (⟨S_, .f32⟩ : BufTy).Contents (Elt F) → (⟨S524288x64, .f32⟩ : BufTy).Contents (Elt F)),
    binary main_v11 main_v10 main_v12 (subf : (⟨S524288x64, .f32⟩ : BufTy).Contents (Elt F) → (⟨S524288x64, .f32⟩ : BufTy).Contents (Elt F) → (⟨S524288x64, .f32⟩ : BufTy).Contents (Elt F)),
    nullary main_cst_1 (constant S_ .f32 0x40000000#32),
    unary main_cst_1 main_v13 (broadcastInDim S524288x64 ![] bcast_S_S524288x64 : (⟨S_, .f32⟩ : BufTy).Contents (Elt F) → (⟨S524288x64, .f32⟩ : BufTy).Contents (Elt F)),
    binary main_v12 main_v13 main_v14 (Host.powf : (⟨S524288x64, .f32⟩ : BufTy).Contents (Elt F) → (⟨S524288x64, .f32⟩ : BufTy).Contents (Elt F) → (⟨S524288x64, .f32⟩ : BufTy).Contents (Elt F)),
    nullary main_cst_2 (constant S_ .f32 0x3F800000#32),
    unary main_cst_2 main_v15 (broadcastInDim S524288x64 ![] bcast_S_S524288x64 : (⟨S_, .f32⟩ : BufTy).Contents (Elt F) → (⟨S524288x64, .f32⟩ : BufTy).Contents (Elt F)),
    binary main_v15 main_v14 main_v16 (mulf : (⟨S524288x64, .f32⟩ : BufTy).Contents (Elt F) → (⟨S524288x64, .f32⟩ : BufTy).Contents (Elt F) → (⟨S524288x64, .f32⟩ : BufTy).Contents (Elt F)),
    binary main_v16 main_v8 main_v17 (mulf : (⟨S524288x64, .f32⟩ : BufTy).Contents (Elt F) → (⟨S524288x64, .f32⟩ : BufTy).Contents (Elt F) → (⟨S524288x64, .f32⟩ : BufTy).Contents (Elt F)),
    unary main_arg2 main_v18 (broadcastInDim S64x1 ![0] bcast_S64_S64x1_0 : (⟨S64, .i32⟩ : BufTy).Contents (Elt F) → (⟨S64x1, .i32⟩ : BufTy).Contents (Elt F)),
    nullary main_v19 (iotaInDim S8 32 0),
    unary main_v19 main_v20 (broadcastInDim S1x8 ![1] bcast_S8_S1x8_1 : (⟨S8, .i32⟩ : BufTy).Contents (Elt F) → (⟨S1x8, .i32⟩ : BufTy).Contents (Elt F)),
    unary main_v18 main_v21 (broadcastInDim S64x8 ![0, 1] bcast_S64x1_S64x8_0_1 : (⟨S64x1, .i32⟩ : BufTy).Contents (Elt F) → (⟨S64x8, .i32⟩ : BufTy).Contents (Elt F)),
    unary main_v20 main_v22 (broadcastInDim S64x8 ![0, 1] bcast_S1x8_S64x8_0_1 : (⟨S1x8, .i32⟩ : BufTy).Contents (Elt F) → (⟨S64x8, .i32⟩ : BufTy).Contents (Elt F)),
    binary main_v21 main_v22 main_v23 (cmpi .eq : (⟨S64x8, .i32⟩ : BufTy).Contents (Elt F) → (⟨S64x8, .i32⟩ : BufTy).Contents (Elt F) → (⟨S64x8, .i1⟩ : BufTy).Contents (Elt F)),
    unary main_v23 main_v24 (uitofp .f32 : (⟨S64x8, .i1⟩ : BufTy).Contents (Elt F) → (⟨S64x8, .f32⟩ : BufTy).Contents (Elt F)),
    binary main_arg1 main_v24 main_v25 ((fun l r => Host.dotGeneral dot_S524288x64_S64x8_S524288x8_1_0_0_1_n_n none l r) : (⟨S524288x64, .f32⟩ : BufTy).Contents (Elt F) → (⟨S64x8, .f32⟩ : BufTy).Contents (Elt F) → (⟨S524288x8, .f32⟩ : BufTy).Contents (Elt F)),
    -- the group lookup, on the label sums and the group words
    TRef.nullary main_call0.c (constantI S_ 32 0#32),
    TRef.unary main_call0.c main_call0.v0 (broadcastInDim S64 ![] bcast_S_S64),
    TRef.binary (.of main_arg2 : TRef sig ⟨S64, .i32⟩) main_call0.v0 main_call0.v1 (cmpi .slt),
    TRef.nullary main_call0.c_0 (constantI S_ 32 8#32),
    TRef.unary main_call0.c_0 main_call0.v2 (broadcastInDim S64 ![] bcast_S_S64),
    TRef.binary (.of main_arg2 : TRef sig ⟨S64, .i32⟩) main_call0.v2 main_call0.v3 addi,
    TRef.ternary main_call0.v1 main_call0.v3 (.of main_arg2 : TRef sig ⟨S64, .i32⟩) main_call0.call0.v0 select,
    TRef.unary main_call0.call0.v0 main_call0.v5 (broadcastInDim S64x1 ![0] bcast_S64_S64x1_0),
    TRef.nullary main_call0.c_1 (constantI S1 32 7#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_v25 : TRef sig ⟨S524288x8, .f32⟩) main_call0.v5 main_call0.v13 (fun x i => Host.gather gather_S524288x8_S64x1_S524288x64_0_1_n_n_1_1_5242881 x i),
    TRef.unary main_call0.v12 main_call0.v14 (broadcastInDim S524288x64 ![1] bcast_S64_S524288x64_1),
    TRef.nullary main_call0.cst (constant S_ .f32 0x7FC00000#32),
    TRef.unary main_call0.cst main_call0.v15 (broadcastInDim S524288x64 ![] bcast_S_S524288x64),
    TRef.ternary main_call0.v14 main_call0.v13 main_call0.v15 main_call0.v16 select,
    -- the group-0 bit and the positive-sum flag
    unary main_arg2 main_v27 (broadcastInDim S1x64 ![1] bcast_S64_S1x64_1 : (⟨S64, .i32⟩ : BufTy).Contents (Elt F) → (⟨S1x64, .i32⟩ : BufTy).Contents (Elt F)),
    nullary main_c (constantI S_ 32 0#32),
    unary main_c main_v28 (broadcastInDim S1x64 ![] bcast_S_S1x64 : (⟨S_, .i32⟩ : BufTy).Contents (Elt F) → (⟨S1x64, .i32⟩ : BufTy).Contents (Elt F)),
    binary main_v27 main_v28 main_v29 (cmpi .eq : (⟨S1x64, .i32⟩ : BufTy).Contents (Elt F) → (⟨S1x64, .i32⟩ : BufTy).Contents (Elt F) → (⟨S1x64, .i1⟩ : BufTy).Contents (Elt F)),
    nullary main_cst_3 (constant S_ .f32 0x00000000#32),
    unary main_cst_3 main_v30 (broadcastInDim S524288x64 ![] bcast_S_S524288x64 : (⟨S_, .f32⟩ : BufTy).Contents (Elt F) → (⟨S524288x64, .f32⟩ : BufTy).Contents (Elt F)),
    binary main_v26 main_v30 main_v31 (cmpf .ogt : (⟨S524288x64, .f32⟩ : BufTy).Contents (Elt F) → (⟨S524288x64, .f32⟩ : BufTy).Contents (Elt F) → (⟨S524288x64, .i1⟩ : BufTy).Contents (Elt F)),
    unary main_v31 main_v32 (uitofp .f32 : (⟨S524288x64, .i1⟩ : BufTy).Contents (Elt F) → (⟨S524288x64, .f32⟩ : BufTy).Contents (Elt F)),
    nullary main_cst_4 (constant S_ .f32 0x3F800000#32),
    -- one where the group is group 0, else the flag
    TRef.unary (.of main_cst_4 : TRef sig ⟨S_, .f32⟩) main_call1.v0 id,
    TRef.unary (.of main_v29 : TRef sig ⟨S1x64, .i1⟩) main_call1.v1 (broadcastInDim S524288x64 ![0, 1] bcast_S1x64_S524288x64_0_1),
    TRef.unary main_call1.v0 main_call1.v2 (broadcastInDim S524288x64 ![] bcast_S_S524288x64),
    TRef.ternary main_call1.v1 main_call1.v2 (.of main_v32 : TRef sig ⟨S524288x64, .f32⟩) main_call1.v3 select,
    -- the mask scaled, the product, the sum of all elements over their count
    nullary main_cst_5 (constant S_ .f32 0x3FC00000#32),
    unary main_cst_5 main_v34 (broadcastInDim S524288x64 ![] bcast_S_S524288x64 : (⟨S_, .f32⟩ : BufTy).Contents (Elt F) → (⟨S524288x64, .f32⟩ : BufTy).Contents (Elt F)),
    binary main_v33 main_v34 main_v35 (mulf : (⟨S524288x64, .f32⟩ : BufTy).Contents (Elt F) → (⟨S524288x64, .f32⟩ : BufTy).Contents (Elt F) → (⟨S524288x64, .f32⟩ : BufTy).Contents (Elt F)),
    binary main_v17 main_v35 main_v36 (mulf : (⟨S524288x64, .f32⟩ : BufTy).Contents (Elt F) → (⟨S524288x64, .f32⟩ : BufTy).Contents (Elt F) → (⟨S524288x64, .f32⟩ : BufTy).Contents (Elt F)),
    nullary main_cst_6 (constant S_ .f32 0x00000000#32),
    binary main_v36 main_cst_6 main_v37 ((fun x v => Host.reduceAdd x v reducesTo_S524288x64_S_d0_1 h_S_) : (⟨S524288x64, .f32⟩ : BufTy).Contents (Elt F) → (⟨S_, .f32⟩ : BufTy).Contents (Elt F) → (⟨S_, .f32⟩ : BufTy).Contents (Elt F)),
    nullary main_cst_7 (constant S_ .f32 0x4C000000#32),
    binary main_v37 main_cst_7 main_v38 (Host.divf : (⟨S_, .f32⟩ : BufTy).Contents (Elt F) → (⟨S_, .f32⟩ : BufTy).Contents (Elt F) → (⟨S_, .f32⟩ : BufTy).Contents (Elt F)) ]

-- seventy-four binds re-associated: the rewrite under the chain recurses once per statement
set_option maxRecDepth 4096 in
set_option maxHeartbeats 1600000 in
/-- @main is that straight line: with the three callees' definitions unfolded at their calls, both sides are one
    chain of steps once sequencing is reassociated and each callee's closing return is dropped; the rewriting ends
    with the two sides syntactically one. -/
theorem main_eq (c : Dev nD) : main (F := F) c = seq ops := by
  simp only [main, fn_take.body, fn_where.body, fn_where_0.body, seq, bind_assoc, pure_bind]

/-- The signature scopes no TensorCore buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ tcRefs τ sig :=
  ⟨nullary_bufs_sub .., unary_bufs_sub .., binary_bufs_sub .., binary_bufs_sub .., binary_bufs_sub .., unary_bufs_sub ..,
    unary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., unary_bufs_sub .., nullary_bufs_sub ..,
    unary_bufs_sub .., unary_bufs_sub .., unary_bufs_sub .., binary_bufs_sub .., unary_bufs_sub .., binary_bufs_sub ..,
    -- the group lookup
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    -- the bit and the flag
    unary_bufs_sub .., nullary_bufs_sub .., unary_bufs_sub .., binary_bufs_sub .., nullary_bufs_sub .., unary_bufs_sub ..,
    binary_bufs_sub .., unary_bufs_sub .., nullary_bufs_sub ..,
    -- the second select
    unary_bufs_sub .., unary_bufs_sub .., unary_bufs_sub .., ternary_bufs_sub ..,
    -- the tail
    nullary_bufs_sub .., unary_bufs_sub .., binary_bufs_sub .., binary_bufs_sub .., nullary_bufs_sub .., binary_bufs_sub ..,
    nullary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the result and at the arguments -/

attribute [local irreducible] Host.reduce Host.gather Host.reduceAdd in
set_option maxRecDepth 16384 in
set_option maxHeartbeats 3200000 in
/-- The fold at the result buffer is the program's composed term.  One rewriting pass reads the fold: each
    operation's result at its own result buffer is its function applied to its operands' contents, and at any
    other buffer it is what was there (the buffers are told apart by deciding their references' inequality), every
    shared intermediate visited once.  What is left is the composed term spelt over the launch contents of the
    three arguments, the typed references' casts the identity at these literal references: the stages of the
    composed term unfold to it, by computation.  The reduction over the unit axis, the gather and the sum of all
    elements are kept folded meanwhile: their bodies are folds over the operand's elements, which the equation
    never looks inside (the matrix product is a field of the float values, opaque as it stands). -/
theorem out_eq (V : Valuation τ sig (Elt F)) :
    after ops V (main_v38 : DevRef τ sig)
      = Cert.ReferenceIdeal.HandValue.refVal (V (main_arg0 : DevRef τ sig)) (V (main_arg1 : DevRef τ sig))
          (V (main_arg2 : DevRef τ sig)) := by
  after_results_simp
  rfl

set_option maxRecDepth 16384 in
set_option maxHeartbeats 1600000 in
/-- No operation writes the logits' buffer … -/
theorem arg0_eq (V : Valuation τ sig (Elt F)) :
    after ops V (main_arg0 : DevRef τ sig) = V (main_arg0 : DevRef τ sig) := by
  simp only [after_cons, after_nil]
  rfl

set_option maxRecDepth 16384 in
set_option maxHeartbeats 1600000 in
/-- … nor the labels' … -/
theorem arg1_eq (V : Valuation τ sig (Elt F)) :
    after ops V (main_arg1 : DevRef τ sig) = V (main_arg1 : DevRef τ sig) := by
  simp only [after_cons, after_nil]
  rfl

set_option maxRecDepth 16384 in
set_option maxHeartbeats 1600000 in
/-- … nor the group words'. -/
theorem arg2_eq (V : Valuation τ sig (Elt F)) :
    after ops V (main_arg2 : DevRef τ sig) = V (main_arg2 : DevRef τ sig) := by
  simp only [after_cons, after_nil]
  rfl

/-- The run in value form: every weakly fair execution of @main terminates with the result buffer at the
    composed term of the three arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = Cert.ReferenceIdeal.HandValue.refVal (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c main_v38).trans (out_eq _), (h c main_arg0).trans (arg0_eq _),
      (h c main_arg1).trans (arg1_eq _), (h c main_arg2).trans (arg2_eq _)⟩)
    (run_main m ρ)

end Cert.ReferenceIdeal.HandRun

end
-- ==== Proof.RefRead.lean ====
/-
  The reference's value, read: under the hypothesis that every class's group word is in 0..7, the pure function
  `refVal` of the three arguments is the specification's `rTotal`.

  Stage by stage, at one index:

    * the loss chain is the specification's `rLoss` of the two elements, every operation at the ideal values being
      the extended reals' own;
    * the one-hot table at (c, k) compares class c's word with the word of k: the specification's `oh`;
    * the contraction of the labels with it is, at (b, k), the sum over the classes of label times `oh`;
    * the look-up: a word in 0..7 is not negative, so it is not wrapped, and it passes the range test, so the gathered
      value stands and never the fill; the gather reads the group sums at (b, the word of class c'); and the one-hot
      column of that word says "class c has the word of class c'": the specification's `pcs`;
    * the mask is the specification's `rMask` of that sum and the bit "class c's word is 0";
    * the reduction over both axes is 0 plus the sum over all indices, a double sum over samples and classes, and
      the division is the ideal one.
-/
import proofs.«419825_j37220186587138_3_alg».proof.Proof.RefVal
import proofs.«419825_j37220186587138_3_alg».proof.Proof.Spec
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.ReferenceIdeal.HandValue

open Cert.ReferenceIdeal Idealize.ShloMosaic Idealize.ShloMosaic.ValueIdx Cert.Focal
open scoped BigOperators

variable [Cert.ReferenceIdeal.Facts]
open Cert.ReferenceIdeal.Facts₀ Cert.ReferenceIdeal.Facts

/-! ## Broadcasts read at an index -/

section Broadcasts
variable {α : Type}

/-- A vector of 64 laid down a 64 x 1 column reads, at row c, the vector at c. -/
theorem bc_col (h : S64.BroadcastsInDim S64x1 ![0]) (v : S64.Idx → α) (c : Fin 64) (z : Fin 1) :
    broadcastInDim S64x1 ![0] h v (ix2 c z) = v (ix1 c) := by
  refine broadcastInDim_apply ![0] h v (ix2 c z) (ix1 c) ?_
  intro a
  match a with
  | ⟨0, _⟩ => rfl

/-- A vector of 8 laid along a 1 x 8 row reads, at column k, the vector at k. -/
theorem bc_row8 (h : S8.BroadcastsInDim S1x8 ![1]) (v : S8.Idx → α) (z : Fin 1) (k : Fin 8) :
    broadcastInDim S1x8 ![1] h v (ix2 z k) = v (ix1 k) := by
  refine broadcastInDim_apply ![1] h v (ix2 z k) (ix1 k) ?_
  intro a
  match a with
  | ⟨0, _⟩ => rfl

/-- A vector of 64 laid along a 1 x 64 row reads, at column c, the vector at c. -/
theorem bc_row64 (h : S64.BroadcastsInDim S1x64 ![1]) (v : S64.Idx → α) (z : Fin 1) (c : Fin 64) :
    broadcastInDim S1x64 ![1] h v (ix2 z c) = v (ix1 c) := by
  refine broadcastInDim_apply ![1] h v (ix2 z c) (ix1 c) ?_
  intro a
  match a with
  | ⟨0, _⟩ => rfl

/-- A 64 x 1 column spread over 8 columns reads, at (c, k), the column at c. -/
theorem bc_of_col (h : S64x1.BroadcastsInDim S64x8 ![0, 1]) (v : S64x1.Idx → α) (c : Fin 64) (k : Fin 8) :
    broadcastInDim S64x8 ![0, 1] h v (ix2 c k) = v (ix2 c (0 : Fin 1)) := by
  refine broadcastInDim_apply ![0, 1] h v (ix2 c k) (ix2 c (0 : Fin 1)) ?_
  intro a
  match a with
  | ⟨0, _⟩ => rfl
  | ⟨1, _⟩ => rfl

/-- A vector of 64 spread down the rows of the 524288 x 64 array reads, at (b, c), the vector at c. -/
theorem bc_cols (h : S64.BroadcastsInDim S524288x64 ![1]) (v : S64.Idx → α) (b : Fin 524288) (c : Fin 64) :
    broadcastInDim S524288x64 ![1] h v (ix2 b c) = v (ix1 c) := by
  refine broadcastInDim_apply ![1] h v (ix2 b c) (ix1 c) ?_
  intro a
  match a with
  | ⟨0, _⟩ => rfl

end Broadcasts

/-! ## The loss, the one-hot table, the group sums, the mask -/

/-- The loss chain at an index is the specification's loss of the two elements there. -/
theorem lossV_apply (x t : Arr) (i : S524288x64.Idx) : lossV (F := Ideal) x t i = rLoss (x i) (t i) := rfl

theorem onehotV_apply (g : Grp) (c : Fin 64) (k : Fin 8) : onehotV (F := Ideal) g (ix2 c k) = oh g c k := by
  have h1 : broadcastInDim S64x8 ![0, 1] bcast_S64x1_S64x8_0_1 (broadcastInDim S64x1 ![0] bcast_S64_S64x1_0 g) (ix2 c k)
      = g (ix1 c) := by rw [bc_of_col, bc_col]
  have h2 : broadcastInDim S64x8 ![0, 1] bcast_S1x8_S64x8_0_1
      (broadcastInDim S1x8 ![1] bcast_S8_S1x8_1 (iotaInDim S8 32 0)) (ix2 c k) = BitVec.ofNat 32 k.val := by
    rw [broadcastInDim_oneRow_apply, bc_row8]; rfl
  show (((IntOp.cmpi .eq
      (broadcastInDim S64x8 ![0, 1] bcast_S64x1_S64x8_0_1 (broadcastInDim S64x1 ![0] bcast_S64_S64x1_0 g) (ix2 c k))
      (broadcastInDim S64x8 ![0, 1] bcast_S1x8_S64x8_0_1
        (broadcastInDim S1x8 ![1] bcast_S8_S1x8_1 (iotaInDim S8 32 0)) (ix2 c k))).toNat : ℝ) : EReal) = _
  rw [h1, h2]; rfl

theorem gsumV_apply (t : Arr) (g : Grp) (b : Fin 524288) (k : Fin 8) :
    gsumV (F := Ideal) t g (ix2 b k) = ∑ c : Fin 64, t (ix2 b c) * oh g c k := by
  show Host.dotGeneral (DotDims.plain 524288 64 8) none t (onehotV g) (ix2 b k) = _
  rw [StackMember.dotGeneral_plain_apply]
  exact Finset.sum_congr rfl fun c _ => by rw [onehotV_apply]

theorem maskV_apply (s : Arr) (g : Grp) (b : Fin 524288) (c : Fin 64) :
    maskV (F := Ideal) s g (ix2 b c) = rMask (s (ix2 b c)) (gz g c) := by
  have hw : broadcastInDim S524288x64 ![0, 1] bcast_S1x64_S524288x64_0_1
      (cmpi .eq (broadcastInDim S1x64 ![1] bcast_S64_S1x64_1 g)
        (broadcastInDim S1x64 ![] bcast_S_S1x64 (constantI S_ 32 0#32))) (ix2 b c) = gz g c := by
    rw [broadcastInDim_oneRow_apply]
    show IntOp.cmpi .eq (broadcastInDim S1x64 ![1] bcast_S64_S1x64_1 g (ix2 (0 : Fin 1) c)) 0#32 = _
    rw [bc_row64]; rfl
  show Scalar.select (broadcastInDim S524288x64 ![0, 1] bcast_S1x64_S524288x64_0_1
      (cmpi .eq (broadcastInDim S1x64 ![1] bcast_S64_S1x64_1 g)
        (broadcastInDim S1x64 ![] bcast_S_S1x64 (constantI S_ 32 0#32))) (ix2 b c)) c1 _ * c15 = _
  rw [hw]; rfl

/-! ## Words in 0..7 -/

/-- A word whose signed value is not negative is not below zero: the wrap of a negative index is not taken. -/
theorem wrap_id (a : BitVec 32) (h0 : 0 ≤ a.toInt) :
    Scalar.select (IntOp.cmpi .slt a 0#32) (IntOp.addi a 8#32) a = a := by
  have h : IntOp.cmpi .slt a 0#32 = 0#1 := by
    show BitVec.ofBool (a.slt 0#32) = 0#1
    have : a.slt 0#32 = false := by
      rw [BitVec.slt, decide_eq_false_iff_not]
      have : (0#32 : BitVec 32).toInt = 0 := by decide
      omega
    rw [this]; rfl
  rw [h, select_zero]

/-- A word whose signed value is in 0..7 passes the range test. -/
theorem range_ok (a : BitVec 32) (h0 : 0 ≤ a.toInt) (h8 : a.toInt < 8) :
    IntOp.andi (IntOp.cmpi .sge a 0#32) (IntOp.cmpi .sle a 7#32) = 1#1 := by
  have h1 : IntOp.cmpi .sge a 0#32 = 1#1 := by
    show BitVec.ofBool ((0#32 : BitVec 32).sle a) = 1#1
    have : (0#32 : BitVec 32).sle a = true := by
      rw [BitVec.sle, decide_eq_true_iff]
      have : (0#32 : BitVec 32).toInt = 0 := by decide
      omega
    rw [this]; rfl
  have h2 : IntOp.cmpi .sle a 7#32 = 1#1 := by
    show BitVec.ofBool (a.sle 7#32) = 1#1
    have : a.sle 7#32 = true := by
      rw [BitVec.sle, decide_eq_true_iff]
      have : (7#32 : BitVec 32).toInt = 7 := by decide
      omega
    rw [this]; rfl
  rw [h1, h2]; rfl

/-- Such a word is the 32-bit word of its own value. -/
theorem ofNat_toInt_toNat (a : BitVec 32) (h0 : 0 ≤ a.toInt) : BitVec.ofNat 32 a.toInt.toNat = a := by
  have hlt := a.isLt
  have h : a.toInt = (a.toNat : Int) := by
    rw [BitVec.toInt_eq_toNat_cond] at h0 ⊢
    split
    · rfl
    · rename_i hn; rw [if_neg hn] at h0; omega
  rw [h, Int.toNat_natCast]
  apply BitVec.eq_of_toNat_eq
  rw [BitVec.toNat_ofNat]
  exact Nat.mod_eq_of_lt hlt

/-! ## The look-up -/

/-- The group words with a negative one wrapped by 8, as the 64 x 1 column of start indices. -/
def wrapIdx (a2 : IVec S64 32) : IVec S64x1 32 :=
  let c : IVec S_ 32 := constantI S_ 32 0#32
  let v0 : IVec S64 32 := broadcastInDim S64 ![] bcast_S_S64 c
  let v1 : IVec S64 1 := cmpi .slt a2 v0
  let c_0 : IVec S_ 32 := constantI S_ 32 8#32
  let v2 : IVec S64 32 := broadcastInDim S64 ![] bcast_S_S64 c_0
  let v3 : IVec S64 32 := addi a2 v2
  let v4 : IVec S64 32 := select v1 v3 a2
  broadcastInDim S64x1 ![0] bcast_S64_S64x1_0 v4

/-- The range test 0..7 of the wrapped words, one bit per class. -/
def inRange (a2 : IVec S64 32) : IVec S64 1 :=
  let v5 : IVec S64x1 32 := wrapIdx a2
  let c_1 : IVec S1 32 := constantI S1 32 7#32
  let c_2 : IVec S_ 32 := constantI S_ 32 0#32
  let v6 : IVec S64x1 32 := broadcastInDim S64x1 ![] bcast_S_S64x1 c_2
  let v7 : IVec S64x1 1 := cmpi .sge v5 v6
  let v8 : IVec S1x1 32 := broadcastInDim S1x1 ![1] bcast_S1_S1x1_1 c_1
  let v9 : IVec S64x1 32 := broadcastInDim S64x1 ![0, 1] bcast_S1x1_S64x1_0_1 v8
  let v10 : IVec S64x1 1 := cmpi .sle v5 v9
  let v11 : IVec S64x1 1 := andi v7 v10
  let c_3 : IVec S_ 1 := constantI S_ 1 1#1
  Host.reduce IntOp.andi v11 c_3 reducesTo_S64x1_S64_d1 h_S_

/-- The look-up is the gathered column where the range test holds, the fill value elsewhere. -/
theorem takeV_eq {F : FTy → Type} [FloatOps F] (x : FVec F S524288x8 .f32) (a2 : IVec S64 32) :
    takeV x a2 = select (broadcastInDim S524288x64 ![1] bcast_S64_S524288x64_1 (inRange a2))
      (Host.gather gather_S524288x8_S64x1_S524288x64_0_1_n_n_1_1_5242881 x (wrapIdx a2))
      (broadcastInDim S524288x64 ![] bcast_S_S524288x64 (constant S_ .f32 0x7FC00000#32)) := rfl

/-- Under the range hypothesis the start index of class c is its own group word. -/
theorem wrapIdx_apply (g : Grp) (c : Fin 64) (z : Fin 1) (h0 : 0 ≤ (g (ix1 c)).toInt) :
    wrapIdx g (ix2 c z) = g (ix1 c) := by
  unfold wrapIdx
  rw [bc_col]
  exact wrap_id _ h0

/-- The conjunction of bits that are all set, from a set bit, is set. -/
theorem foldl_andi_ones {ι : Type} (f : ι → BitVec 1) (hf : ∀ n, f n = 1#1) (l : List ι) :
    l.foldl (fun r n => IntOp.andi r (f n)) 1#1 = 1#1 := by
  induction l with
  | nil => rfl
  | cons n l ih =>
    rw [List.foldl_cons, hf n]
    exact ih

/-- Under the range hypothesis every class passes the range test. -/
theorem inRange_apply (g : Grp) (hg : ∀ c : Fin 64, 0 ≤ (g (ix1 c)).toInt ∧ (g (ix1 c)).toInt < 8) (j : S64.Idx) :
    inRange g j = 1#1 := by
  unfold inRange Host.reduce
  refine foldl_andi_ones _ (fun n => ?_) _
  obtain ⟨c, z, hcz⟩ : ∃ (c : Fin 64) (z : Fin 1), S64x1.rowMajor.symm n = ix2 c z := ⟨_, _, eq_ix2 _⟩
  rw [hcz]
  show IntOp.andi (IntOp.cmpi .sge (wrapIdx g (ix2 c z)) 0#32) (IntOp.cmpi .sle (wrapIdx g (ix2 c z)) 7#32) = 1#1
  rw [wrapIdx_apply g c z (hg c).1]
  exact range_ok _ (hg c).1 (hg c).2

/-! ## The gather read at an index -/

local notation "GD" => gather_S524288x8_S64x1_S524288x64_0_1_n_n_1_1_5242881

theorem gd_sim : (GD).startIndexMap = [1] := rfl
theorem gd_ob : (GD).operandBatchingDims = [] := rfl
theorem gd_coll : (GD).collapsedSliceDims = [1] := rfl
theorem gd_off : (GD).offsetDims = [0] := rfl
theorem gd_ivd : (GD).indexVectorDim = 1 := rfl

/-- The gathered element's sample is the result's sample. -/
theorem gather_coord0 {w : Nat} (idx : IVec S64x1 w) (b : Fin 524288) (c' : Fin 64) :
    ((GD).operandIdx (ix2 b c') idx 0).val = b.val := by
  show (GD).start (ix2 b c') idx 0 + (GD).batchCoord (ix2 b c') 0 + (GD).offCoord (ix2 b c') 0 = b.val
  rw [GatherDims.batchCoord_eq_zero _ _ _ (by rw [gd_ob]; exact List.not_mem_nil)]
  unfold GatherDims.start
  rw [dif_neg (by rw [gd_sim]; decide)]
  unfold GatherDims.offCoord
  rw [dif_pos ((GatherDims.mem_sKept _ _).2 ⟨by rw [gd_coll]; decide, by rw [gd_ob]; exact List.not_mem_nil⟩)]
  have hoff : ∀ (n : Nat) (hn : n < (GD).offsetDims.length), (GD).offsetDims[n] = (0 : Fin 2) := by
    intro n hn
    have hl : (GD).offsetDims.length = 1 := rfl
    have h0 : n = 0 := by omega
    subst h0; rfl
  rw [hoff]
  show 0 + 0 + b.val = b.val
  omega

/-- The gathered element's group is the start index the result's class names, read signed and clamped into 0..7. -/
theorem gather_coord1 {w : Nat} (idx : IVec S64x1 w) (b : Fin 524288) (c' : Fin 64) :
    ((GD).operandIdx (ix2 b c') idx 1).val = min (idx (ix2 c' (0 : Fin 1))).toInt.toNat 7 := by
  show (GD).start (ix2 b c') idx 1 + (GD).batchCoord (ix2 b c') 1 + (GD).offCoord (ix2 b c') 1 = _
  rw [GatherDims.batchCoord_eq_zero _ _ _ (by rw [gd_ob]; exact List.not_mem_nil),
    GatherDims.offCoord_eq_zero _ _ _
      (fun h => ((GatherDims.mem_sKept _ _).1 h).1 (by rw [gd_coll]; exact List.mem_singleton.mpr rfl))]
  unfold GatherDims.start
  rw [dif_pos (by rw [gd_sim]; decide)]
  have hsi : (GD).siIdx (ix2 b c') ⟨List.idxOf (1 : Fin 2) (GD).startIndexMap,
      List.idxOf_lt_length_iff.2 (by rw [gd_sim]; decide)⟩ = ix2 c' (0 : Fin 1) := by
    funext a; refine Fin.ext ?_
    match a with
    | ⟨0, _⟩ => rfl
    | ⟨1, _⟩ => rfl
  rw [hsi]
  rfl

theorem gather_apply {α : Type} {w : Nat} (x : S524288x8.Idx → α) (idx : IVec S64x1 w) (b : Fin 524288) (c' : Fin 64) :
    Host.gather GD x idx (ix2 b c')
      = x (ix2 b ⟨min (idx (ix2 c' (0 : Fin 1))).toInt.toNat 7, by omega⟩) := by
  unfold Host.gather
  congr 1
  funext a
  refine Fin.ext ?_
  match a with
  | ⟨0, _⟩ => exact gather_coord0 idx b c'
  | ⟨1, _⟩ => exact gather_coord1 idx b c'

/-! ## The look-up of the group sums is the specification's per-class sum -/

/-- Class c''s group as an index 0..7. -/
def grpOf (g : Grp) (hg : ∀ c : Fin 64, 0 ≤ (g (ix1 c)).toInt ∧ (g (ix1 c)).toInt < 8) (c' : Fin 64) : Fin 8 :=
  ⟨(g (ix1 c')).toInt.toNat, by have := hg c'; omega⟩

/-- The one-hot column of class c''s group says which classes carry c''s word. -/
theorem oh_grpOf (g : Grp) (hg : ∀ c : Fin 64, 0 ≤ (g (ix1 c)).toInt ∧ (g (ix1 c)).toInt < 8) (c c' : Fin 64) :
    oh g c (grpOf g hg c') = same g c c' := by
  unfold oh same
  rw [show BitVec.ofNat 32 (grpOf g hg c').val = g (ix1 c') from ofNat_toInt_toNat _ (hg c').1]

/-- Under the range hypothesis the look-up at (b, c') reads the table at (b, the group of c'). -/
theorem takeV_apply (x : FVec Ideal S524288x8 .f32) (g : Grp)
    (hg : ∀ c : Fin 64, 0 ≤ (g (ix1 c)).toInt ∧ (g (ix1 c)).toInt < 8) (b : Fin 524288) (c' : Fin 64) :
    takeV x g (ix2 b c') = x (ix2 b (grpOf g hg c')) := by
  rw [takeV_eq]
  show Scalar.select (broadcastInDim S524288x64 ![1] bcast_S64_S524288x64_1 (inRange g) (ix2 b c'))
    (Host.gather GD x (wrapIdx g) (ix2 b c')) _ = _
  rw [bc_cols, inRange_apply g hg, select_one, gather_apply]
  have hx : ∀ k1 k2 : Fin 8, k1.val = k2.val → x (ix2 b k1) = x (ix2 b k2) := fun k1 k2 h => by rw [Fin.ext h]
  refine hx _ _ ?_
  show min (wrapIdx g (ix2 c' (0 : Fin 1))).toInt.toNat 7 = (g (ix1 c')).toInt.toNat
  rw [wrapIdx_apply g c' 0 (hg c').1]
  have := hg c'
  omega

/-- The looked-up group sum of class c' in sample b is the sum of the sample's labels over the classes of c''s group. -/
theorem take_gsum_apply (t : Arr) (g : Grp) (hg : ∀ c : Fin 64, 0 ≤ (g (ix1 c)).toInt ∧ (g (ix1 c)).toInt < 8)
    (b : Fin 524288) (c' : Fin 64) :
    takeV (F := Ideal) (gsumV t g) g (ix2 b c') = pcs t g b c' := by
  rw [takeV_apply _ g hg, gsumV_apply]
  unfold pcs
  exact Finset.sum_congr rfl fun c _ => by rw [oh_grpOf]

/-! ## The total -/

/-- The masked sum over both axes from 0, over the count: a double sum over samples and classes. -/
theorem totalV_apply (A B : Arr) (j : S_.Idx) :
    totalV (F := Ideal) A B j = Ideal.div (c0 + ∑ b : Fin 524288, ∑ c : Fin 64, A (ix2 b c) * B (ix2 b c)) cN := by
  show Ideal.div (Ideal.hostReduceAdd reducesTo_S524288x64_S_d0_1 (mulf A B) c0 j) cN = _
  rw [Ideal.hostReduceAdd_total _ (fun b => b.elim0), sum_idx2]
  rfl

/-- THE REFERENCE'S VALUE is the specification's total. -/
theorem refVal_eq (x t : Cert.Focal.Arr) (g : Cert.Focal.Grp)
    (hg : ∀ c : Fin 64, 0 ≤ (g (ValueIdx.ix1 c)).toInt ∧ (g (ValueIdx.ix1 c)).toInt < 8) :
    refVal (F := Ideal) x t g = fun _ => Cert.Focal.rTotal x t g := by
  funext j
  show totalV (lossV x t) (maskV (takeV (gsumV t g) g) g) j = _
  have hs : (∑ b : Fin 524288, ∑ c : Fin 64,
        lossV (F := Ideal) x t (ix2 b c) * maskV (takeV (gsumV t g) g) g (ix2 b c))
      = ∑ b : Fin 524288, ∑ c : Fin 64, rTerm x t g b c :=
    Finset.sum_congr rfl fun b _ => Finset.sum_congr rfl fun c _ => by
      rw [lossV_apply, maskV_apply, take_gsum_apply t g hg]; rfl
  rw [totalV_apply, hs]
  rfl

end Cert.ReferenceIdeal.HandValue

end
-- ==== Proof.PreRead.lean ====
/-
  What the precondition says of the three inputs.

  The precondition is one bit: the conjunction of four "for all elements" statements, each a reduction by "and"
  from 1 of an array of bits.  The bit being 1, each of the four reductions is 1, and so is every bit reduced:
    * |x| < +inf at every element of the logits, so every logit is a real number: |a| = max a (-a) is +inf at
      both infinities (the bottom element also stands for junk), and is finite only at a real;
    * the same for the labels (not needed once the next line is known);
    * every label equals the constant 0.0 or the constant 1.0, the extended reals 0 and 1;
    * every group word, read signed, is at least 0 and below 8.
-/
import proofs.«419825_j37220186587138_3_alg».proof.Proof.Spec
import proofs.«419825_j37220186587138_3_alg».proof.Pre_finite_inputs
import proofs.«419825_j37220186587138_3_alg».proof.Proof.Gen.Pre_finite_inputs
import Idealize.ShloMosaic.Lib.ReduceAll
import Idealize.ShloMosaic.Lib.ValueIdx
import Idealize.ShloMosaic.PureOps.Ideal.Laws

noncomputable section

namespace Cert.Focal

open Idealize.ShloMosaic Idealize.ShloMosaic.ValueIdx

/-- The shape of a scalar has one index. -/
instance : Subsingleton Cert.Pre_finite_inputs.S_.Idx := ⟨fun a b => funext fun d => d.elim0⟩

/-! ## The three float literals of the precondition -/

/-- The pattern with all exponent bits set and no fraction bit denotes +inf. -/
theorem inf_bits : Ideal.ofBits .f32 0x7F800000#32 = (⊤ : EReal) := by simp [Ideal.ofBits, Ideal.ieee]

/-- The pattern of 1.0 denotes 1. -/
theorem one_bits : Ideal.ofBits .f32 0x3F800000#32 = (1 : EReal) := by
  simp [Ideal.ofBits, Ideal.ieee, -EReal.coe_mul]; norm_num

/-! ## One comparison bit read back -/

/-- A truth value's bit is 1 exactly when it is true. -/
theorem ofBool_one (b : Bool) : BitVec.ofBool b = 1#1 ↔ b = true := by cases b <;> decide

/-- The bit of "a < b". -/
theorem cmp_olt_one {a b : EReal} : Ideal.cmp .olt a b = 1#1 ↔ a < b := by
  show BitVec.ofBool (decide (a < b)) = 1#1 ↔ a < b
  rw [ofBool_one, decide_eq_true_iff]

/-- The bit of "a = b". -/
theorem cmp_oeq_one {a b : EReal} : Ideal.cmp .oeq a b = 1#1 ↔ a = b := by
  show BitVec.ofBool (decide (a = b)) = 1#1 ↔ a = b
  rw [ofBool_one, decide_eq_true_iff]

/-- An extended real whose absolute value max a (-a) lies below +inf is a real: at -inf and at +inf the maximum is
    +inf itself. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-! ## The precondition, read -/

theorem of_pre [Cert.Pre_finite_inputs.Facts] (x t : Arr) (g : Grp)
    (h : Cert.Pre_finite_inputs.fn (F := Ideal) x t g = fun _ => 1#1) :
    (∀ i, ∃ r : ℝ, x i = (r : EReal)) ∧ (∀ i, t i = 0 ∨ t i = 1) ∧
      (∀ c : Fin 64, 0 ≤ (g (ix1 c)).toInt ∧ (g (ix1 c)).toInt < 8) := by
  have h0 := congrFun h ValueIdx.ix0
  dsimp only [Cert.Pre_finite_inputs.fn, Cert.Pre_finite_inputs.fn_part1] at h0
  -- the four conjuncts
  obtain ⟨h123, h4⟩ := IntOp.andi_eq_one.1 h0
  obtain ⟨h12, h3⟩ := IntOp.andi_eq_one.1 h123
  obtain ⟨h1, -⟩ := IntOp.andi_eq_one.1 h12
  refine ⟨fun i => ?_, fun i => ?_, fun c => ?_⟩
  · -- |x i| < +inf
    have e : Ideal.cmp .olt (max (x i) (-(x i))) (Ideal.ofBits .f32 0x7F800000#32) = 1#1 :=
      Host.reduce_andi_all _ _ _ _ _ h1 i
    rw [inf_bits, cmp_olt_one] at e
    exact real_of_abs_lt_top _ e
  · -- t i = 0.0 or t i = 1.0
    have e : IntOp.ori (Ideal.cmp .oeq (t i) (Ideal.ofBits .f32 0x00000000#32))
        (Ideal.cmp .oeq (t i) (Ideal.ofBits .f32 0x3F800000#32)) = 1#1 :=
      Host.reduce_andi_all _ _ _ _ _ h3 i
    rw [IntOp.ori_eq_one, cmp_oeq_one, cmp_oeq_one, Ideal.ofBits_zero_f32, one_bits] at e
    exact e
  · -- 0 <= g c < 8, signed
    have e : IntOp.andi (IntOp.cmpi .sge (g (ix1 c)) 0#32) (IntOp.cmpi .slt (g (ix1 c)) 8#32) = 1#1 :=
      Host.reduce_andi_all _ _ _ _ _ h4 (ix1 c)
    rw [IntOp.andi_eq_one, IntOp.cmpi_sge, IntOp.cmpi_slt] at e
    exact ⟨e.1, e.2⟩

end Cert.Focal

end
-- ==== Proof.ElemLaw.lean ====
/-
  One element: the two losses and the two masks are one number.

  For a real logit r and a label t that is 0 or 1, put E = exp (-|r|) and
  bce = max r 0 - r t + log (1 + E).  The reference takes pt = exp (-bce); the kernel takes pt = 1 / (1 + E)
  where "r > 0" and "t > 1/2" agree and E / (1 + E) where they do not.  Where they agree, max r 0 - r t = 0,
  so exp (-bce) = 1 / (1 + E); where they do not, max r 0 - r t = |r|, so exp (-bce) = exp (-|r|) / (1 + E)
  = E / (1 + E).  The square (1 - pt)^2 is a product on one side and a power with exponent 2 on the other.
  Every quantity is a finite real, so each side is the extended real of one real expression.

  For the masks: the kernel's group-0 flag is the 0/1 number of the reference's bit, and a 0/1 number exceeds
  one half exactly when the bit is set; a bit widened to 32 bits and read signed is the bit read unsigned.
-/
import proofs.«419825_j37220186587138_3_alg».proof.Proof.Spec
import Mathlib.Analysis.SpecialFunctions.Pow.Real
import Mathlib.Analysis.SpecialFunctions.Log.Basic

noncomputable section
namespace Cert.Focal
open Idealize.ShloMosaic

/-- The pattern of `0.0` denotes 0. -/
theorem c0_val : c0 = 0 := Ideal.ofBits_zero_f32
/-- The pattern of `1.0` denotes 1. -/
theorem c1_eq : c1 = 1 := by
  simp [Ideal.ofBits, Ideal.ieee, -EReal.coe_mul]; norm_num
/-- The pattern of `0.5` denotes one half. -/
theorem cHalf_eq : cHalf = (((1:ℝ)/2 : ℝ) : EReal) := by
  simp [Ideal.ofBits, Ideal.ieee, -EReal.coe_mul]; norm_num
/-- The pattern of `2.0` denotes 2. -/
theorem c2_eq : c2 = ((2 : ℝ) : EReal) := by
  simp [Ideal.ofBits, Ideal.ieee, -EReal.coe_mul]; norm_num

/-! ## Auxiliary facts, in their own namespace -/

namespace Elem

/-- `exp (-(a + log (1 + E))) = exp (-a) / (1 + E)` for a positive `E`. -/
theorem exp_neg_add_log (a E : ℝ) (hE : 0 < E) :
    Real.exp (-(a + Real.log (1 + E))) = Real.exp (-a) / (1 + E) := by
  have h1 : (0:ℝ) < 1 + E := by linarith
  rw [neg_add, Real.exp_add, Real.exp_neg (Real.log _), Real.exp_log h1, div_eq_mul_inv]

/-- `exp (-|r|)` as the kernel spells it, `0 - max r (-r)` under the exponential. -/
theorem expK_coe (r : ℝ) :
    Ideal.exp (0 - max (r : EReal) (-(r : EReal))) = ((Real.exp (-|r|) : ℝ) : EReal) := by
  rw [zero_sub, ← EReal.coe_neg r, ← EReal.coe_strictMono.monotone.map_max, ← abs_eq_max_neg,
    ← EReal.coe_neg, Ideal.exp_coe]

/-- `exp (-|r|)` as the reference spells it, a negation under the exponential. -/
theorem expR_coe (r : ℝ) :
    Ideal.exp (-(max (r : EReal) (-(r : EReal)))) = ((Real.exp (-|r|) : ℝ) : EReal) := by
  rw [← EReal.coe_neg r, ← EReal.coe_strictMono.monotone.map_max, ← abs_eq_max_neg,
    ← EReal.coe_neg, Ideal.exp_coe]

/-- `log (1 + E)` of a positive real is the real logarithm. -/
theorem log1p_coe {E : ℝ} (hE : 0 < E) :
    Ideal.log1p (E : EReal) = ((Real.log (1 + E) : ℝ) : EReal) := by
  have h : ¬ (1 + E ≤ 0) := by linarith
  rw [Ideal.log1p, ← EReal.coe_one, ← EReal.coe_add, Ideal.log_coe, if_neg h]

/-- The cross-entropy of a real logit against a real label, over a positive real `E`, is a real number. -/
theorem bce_coe (r τ : ℝ) {E : ℝ} (hE : 0 < E) :
    bce (r : EReal) (τ : EReal) (E : EReal) = ((max r 0 - r * τ + Real.log (1 + E) : ℝ) : EReal) := by
  unfold bce
  rw [c0_val, log1p_coe hE, ← EReal.coe_zero, ← EReal.coe_strictMono.monotone.map_max,
    ← EReal.coe_mul, ← EReal.coe_sub, ← EReal.coe_add]

/-- The comparison "greater than" of two reals, as a bit. -/
theorem cmp_ogt_coe (a b : ℝ) :
    Ideal.cmp .ogt (a : EReal) (b : EReal) = BitVec.ofBool (decide (b < a)) := by
  simp only [Ideal.cmp, EReal.coe_lt_coe_iff]

/-- The exclusive-or of two bits, complemented, selects the first operand exactly where the bits are equal. -/
theorem select_bits (p q : Bool) (a b : EReal) :
    Scalar.select (IntOp.xori (IntOp.xori (BitVec.ofBool p) (BitVec.ofBool q)) 1#1) a b
      = if p = q then a else b := by
  cases p <;> cases q <;> rfl

/-- The kernel's choice of numerator: the first operand where "r is positive" and "τ is above one half" agree. -/
theorem agree_select (r τ : ℝ) (a b : EReal) :
    Scalar.select (IntOp.xori (IntOp.xori (Ideal.cmp .ogt (r : EReal) 0)
      (Ideal.cmp .ogt (τ : EReal) (((1:ℝ)/2 : ℝ) : EReal))) 1#1) a b
      = if (0 < r ↔ (1:ℝ)/2 < τ) then a else b := by
  rw [← EReal.coe_zero, cmp_ogt_coe, cmp_ogt_coe, select_bits]
  simp only [decide_eq_decide]

/-- A real over `1 + E` for a positive real `E` is the real quotient. -/
theorem div_one_add_coe (s : ℝ) {E : ℝ} (hE : 0 < E) :
    Ideal.div (s : EReal) (1 + (E : EReal)) = ((s / (1 + E) : ℝ) : EReal) := by
  have h : (1 + E) ≠ 0 := by positivity
  rw [← EReal.coe_one, ← EReal.coe_add, Ideal.div_coe h, ← EReal.coe_mul, mul_one_div]

/-- For a label that is 0 or 1 the kernel's pt is the reference's: `exp (-bce)`. With E = exp (-|r|):
    where the sign of r agrees with the label, bce = log (1 + E) and exp (-bce) = 1 / (1 + E);
    where it does not, bce = |r| + log (1 + E) and exp (-bce) = E / (1 + E). -/
theorem pt_eq (r τ : ℝ) (hτ : τ = 0 ∨ τ = 1) :
    (if (0 < r ↔ (1:ℝ)/2 < τ) then 1 else Real.exp (-|r|)) / (1 + Real.exp (-|r|))
      = Real.exp (-(max r 0 - r * τ + Real.log (1 + Real.exp (-|r|)))) := by
  rw [exp_neg_add_log _ _ (Real.exp_pos _)]
  congr 1
  rcases hτ with rfl | rfl <;> by_cases hr : 0 < r
  · rw [if_neg (by simp only [hr, true_iff]; norm_num), abs_of_pos hr, max_eq_left hr.le]
    congr 1; ring
  · have hr' : r ≤ 0 := not_lt.mp hr
    rw [if_pos (by simp only [hr, false_iff]; norm_num), max_eq_right hr']
    simp
  · rw [if_pos (by simp only [hr, true_iff]; norm_num), max_eq_left hr.le]
    simp
  · have hr' : r ≤ 0 := not_lt.mp hr
    rw [if_neg (by simp only [hr, false_iff]; norm_num), abs_of_nonpos hr', max_eq_right hr']
    congr 1; ring

/-- The two losses at a real logit and a real label that is 0 or 1: each side is the extended real of one real
    expression, and the two real expressions are equal by `pt_eq`. -/
theorem kLoss_eq_rLoss_real (r τ : ℝ) (hτ : τ = 0 ∨ τ = 1) :
    kLoss (r : EReal) (τ : EReal) = rLoss (r : EReal) (τ : EReal) := by
  have hE : 0 < Real.exp (-|r|) := Real.exp_pos _
  have hite : ∀ P : Prop, ∀ _ : Decidable P, (if P then (1 : EReal) else ((Real.exp (-|r|) : ℝ) : EReal))
      = (((if P then 1 else Real.exp (-|r|)) : ℝ) : EReal) := by
    intro P _; split_ifs <;> rfl
  unfold kLoss rLoss
  simp only []
  rw [c0_val, c1_eq, cHalf_eq, c2_eq, expK_coe, expR_coe, bce_coe r τ hE, agree_select, hite,
    div_one_add_coe _ hE, pt_eq r τ hτ, ← EReal.coe_neg, Ideal.exp_coe, ← EReal.coe_one, ← EReal.coe_sub,
    Ideal.pow_coe_coe, ← EReal.coe_mul, ← EReal.coe_mul, ← EReal.coe_mul, ← EReal.coe_mul, ← EReal.coe_mul]
  congr 1
  rw [Real.rpow_eq_pow, Real.rpow_two]
  ring

/-- A bit widened to 32 bits and read signed is, as a real, the bit read unsigned. -/
theorem toInt_setWidth_bit_real (b : BitVec 1) :
    (((b.setWidth 32).toInt : ℤ) : ℝ) = ((b.toNat : ℕ) : ℝ) := by
  have h : ∀ b : BitVec 1, (b.setWidth 32).toInt = (b.toNat : ℤ) := by decide
  rw [h b, Int.cast_natCast]

end Elem

open Elem

/-! ## The two laws -/

/-- One element's loss: for a label that is 0 or 1 the kernel's and the reference's are one number. -/
theorem kLoss_eq_rLoss (r : ℝ) (t : EReal) (ht : t = 0 ∨ t = 1) :
    kLoss (r : EReal) t = rLoss (r : EReal) t := by
  rcases ht with rfl | rfl
  · have h := kLoss_eq_rLoss_real r 0 (Or.inl rfl)
    rwa [EReal.coe_zero] at h
  · have h := kLoss_eq_rLoss_real r 1 (Or.inr rfl)
    rwa [EReal.coe_one] at h

/-- One element's mask: the kernel's group-0 flag as a 0/1 number against one half is the reference's bit. -/
theorem kMask_eq_rMask (s : EReal) (z : BitVec 1) : kMask s (((z.toNat : ℝ)) : EReal) = rMask s z := by
  unfold kMask rMask
  rw [cHalf_eq, cmp_ogt_coe, toInt_setWidth_bit_real]
  rcases BitVec.eq_zero_or_eq_one z with rfl | rfl
  · have h : ¬ ((1:ℝ)/2 < ((0#1 : BitVec 1).toNat : ℝ)) := by norm_num
    rw [decide_eq_false h]
    rfl
  · have h : ((1:ℝ)/2 < ((1#1 : BitVec 1).toNat : ℝ)) := by norm_num
    rw [decide_eq_true h]
    rfl

end Cert.Focal

end
-- ==== Proof.GroupLaw.lean ====
/-
  The block-diagonal table against a re-laid row of labels is the label sum over the class's group.

  A one-hot entry is the 0/1 number of "the class's group word is k".  For a class whose group word lies in
  0..7 exactly one k of the eight meets it, so the one-hot table times its transpose, at (c, c'), is the 0/1
  number of "c and c' carry the same group word".  The 2 x 2 identity is 1 on equal halves and 0 otherwise, so of
  the 128 lanes of a re-laid row only the 64 lanes of the lane's own sample survive the block-diagonal table, and
  what they add up to is that sample's labels summed over the classes of the lane's class's group.
-/
import proofs.«419825_j37220186587138_3_alg».proof.Proof.Spec
import Mathlib.Algebra.BigOperators.Fin
import Mathlib.Tactic.FinCases

noncomputable section

namespace Cert.Focal

open Idealize.ShloMosaic Idealize.ShloMosaic.ValueIdx
open scoped BigOperators

/-! ## The 0/1 number of an equality test -/

/-- An equality test of two words, read as a number, is 1 where they are equal and 0 where they are not. -/
theorem cmpi_eq_num {w : Nat} (a b : BitVec w) :
    (((IntOp.cmpi .eq a b).toNat : ℝ) : EReal) = if a = b then 1 else 0 := by
  unfold IntOp.cmpi
  by_cases h : a = b
  · simp [h]
  · simp [h]

/-- A group word that reads, signed, as an integer in 0..7 reads, unsigned, below 8. -/
theorem toNat_lt_eight (v : BitVec 32) (h : 0 ≤ v.toInt ∧ v.toInt < 8) : v.toNat < 8 := by
  have hv := v.isLt
  rw [BitVec.toInt_eq_toNat_cond] at h
  split at h <;> omega

/-! ## The one-hot table times its transpose -/

theorem sameK_eq_same (g : Grp) (c c' : Fin 64)
    (hg' : 0 ≤ (g (ix1 c')).toInt ∧ (g (ix1 c')).toInt < 8) : sameK g c c' = same g c c' := by
  have hlt : (g (ix1 c')).toNat < 8 := toNat_lt_eight _ hg'
  -- the one group k0 of 0..7 that class c' is in
  have hk0 : g (ix1 c') = BitVec.ofNat 32 (g (ix1 c')).toNat := by
    apply BitVec.eq_of_toNat_eq
    rw [BitVec.toNat_ofNat, Nat.mod_eq_of_lt (g (ix1 c')).isLt]
  unfold sameK same oh
  rw [Finset.sum_eq_single (⟨(g (ix1 c')).toNat, hlt⟩ : Fin 8)]
  · -- the surviving term: [g c = k0] * [g c' = k0] = [g c = g c'] * 1
    simp only [cmpi_eq_num]
    rw [← hk0]
    simp
  · -- every other k misses c'
    intro k _ hk
    have hne : g (ix1 c') ≠ BitVec.ofNat 32 k.val := by
      intro he
      apply hk
      apply Fin.ext
      have h2 := congrArg BitVec.toNat he
      rw [BitVec.toNat_ofNat, Nat.mod_eq_of_lt (by have := k.isLt; omega)] at h2
      exact h2.symm
    simp only [cmpi_eq_num, if_neg hne, mul_zero]
  · intro h; exact absurd (Finset.mem_univ _) h

/-! ## The 2 x 2 identity -/

theorem eye2_eq (a a' : Fin 2) : eye2 a a' = if a = a' then 1 else 0 := by
  unfold eye2 IntOp.addi
  rw [cmpi_eq_num]
  fin_cases a <;> fin_cases a' <;> simp

/-! ## The 128 lanes of a re-laid row are two samples of 64 classes -/

theorem sum_lanes (F : Fin 128 → EReal) :
    ∑ k : Fin 128, F k
      = ∑ c : Fin 64, F ⟨c.val, by omega⟩ + ∑ c : Fin 64, F ⟨64 + c.val, by omega⟩ :=
  Fin.sum_univ_add (a := 64) (b := 64) F

theorem pcsK_eq_pcs (t : Arr) (g : Grp)
    (hg : ∀ c : Fin 64, 0 ≤ (g (ix1 c)).toInt ∧ (g (ix1 c)).toInt < 8)
    (r : Fin 262144) (l : Fin 128) : pcsK t g r l = pcs t g (rowOf r l) (colOf l) := by
  unfold pcsK pcs
  rw [sum_lanes]
  have hl := l.isLt
  by_cases h : l.val < 64
  · -- the lane is in the row's first sample: the first 64 lanes survive
    have hA : ∀ c : Fin 64,
        relaid t r ⟨c.val, by omega⟩ * blockDiag g ⟨c.val, by omega⟩ l
          = t (ix2 (rowOf r l) c) * same g c (colOf l) := by
      intro c
      have e1 : halfOf ⟨c.val, by omega⟩ = halfOf l := Fin.ext (by simp only [halfOf]; omega)
      have e2 : colOf ⟨c.val, by omega⟩ = c := Fin.ext (by simp only [colOf]; omega)
      have e3 : rowOf r ⟨c.val, by omega⟩ = rowOf r l := Fin.ext (by simp only [rowOf]; omega)
      simp only [relaid, blockDiag, e1, e2, e3, eye2_eq, if_true, one_mul,
        sameK_eq_same g c (colOf l) (hg _)]
    have hB : ∀ c : Fin 64,
        relaid t r ⟨64 + c.val, by omega⟩ * blockDiag g ⟨64 + c.val, by omega⟩ l = 0 := by
      intro c
      have e1 : halfOf ⟨64 + c.val, by omega⟩ ≠ halfOf l := by
        intro he
        have := congrArg Fin.val he
        simp only [halfOf] at this
        omega
      simp only [blockDiag, eye2_eq, if_neg e1, zero_mul, mul_zero]
    simp only [hA, hB, Finset.sum_const_zero, add_zero]
  · -- the lane is in the row's second sample: the last 64 lanes survive
    have hA : ∀ c : Fin 64,
        relaid t r ⟨c.val, by omega⟩ * blockDiag g ⟨c.val, by omega⟩ l = 0 := by
      intro c
      have e1 : halfOf ⟨c.val, by omega⟩ ≠ halfOf l := by
        intro he
        have := congrArg Fin.val he
        simp only [halfOf] at this
        omega
      simp only [blockDiag, eye2_eq, if_neg e1, zero_mul, mul_zero]
    have hB : ∀ c : Fin 64,
        relaid t r ⟨64 + c.val, by omega⟩ * blockDiag g ⟨64 + c.val, by omega⟩ l
          = t (ix2 (rowOf r l) c) * same g c (colOf l) := by
      intro c
      have e1 : halfOf ⟨64 + c.val, by omega⟩ = halfOf l := Fin.ext (by simp only [halfOf]; omega)
      have e2 : colOf ⟨64 + c.val, by omega⟩ = c := Fin.ext (by simp only [colOf]; omega)
      have e3 : rowOf r ⟨64 + c.val, by omega⟩ = rowOf r l := Fin.ext (by simp only [rowOf]; omega)
      simp only [relaid, blockDiag, e1, e2, e3, eye2_eq, if_true, one_mul,
        sameK_eq_same g c (colOf l) (hg _)]
    simp only [hA, hB, Finset.sum_const_zero, zero_add]

end Cert.Focal

end
-- ==== Proof.SumLaw.lean ====
/-
  Adding tile by tile into two restarted accumulators adds everything once.

  The accumulator is restarted at tiles 0 and 32, so after tile 31 it holds tiles 0..31 and after tile 63 it holds
  tiles 32..63: the two together are the 64 tiles, each once.  A tile is 4096 consecutive re-laid rows, so the 64
  tiles are the 262144 re-laid rows, each once.  A re-laid row is two samples side by side, 64 lanes each, so the
  262144 rows of 128 lanes are the 524288 samples of 64 classes, each once.  Addition of extended reals is
  commutative and associative, and the starting word is 0: only the grouping of the terms changes.
-/
import proofs.«419825_j37220186587138_3_alg».proof.Proof.Spec
import Mathlib.Algebra.BigOperators.Fin
import Mathlib.Algebra.BigOperators.Group.Finset.Basic
import Mathlib.Data.Fintype.BigOperators
import Mathlib.Logic.Equiv.Fin.Basic

noncomputable section

namespace Cert.Focal

open Idealize.ShloMosaic Idealize.ShloMosaic.ValueIdx
open scoped BigOperators

/-! ## Sums in blocks -/

/-- Position b of block a, among m blocks of n, is below m * n. -/
theorem blk_lt {m n N : ℕ} (hN : m * n = N) {a b : ℕ} (ha : a < m) (hb : b < n) : n * a + b < N := by
  calc n * a + b < n * a + n := by omega
    _ = n * (a + 1) := by ring
    _ ≤ n * m := Nat.mul_le_mul_left _ ha
    _ = N := by rw [Nat.mul_comm, hN]

/-- A sum over m * n positions, taken as m blocks of n consecutive positions. -/
theorem sum_blocks {M : Type*} [AddCommMonoid M] (m n N : ℕ) (hN : m * n = N) (g : Fin N → M) :
    ∑ x : Fin N, g x = ∑ a : Fin m, ∑ b : Fin n, g ⟨n * a.val + b.val, blk_lt hN a.isLt b.isLt⟩ := by
  subst hN
  rw [← finProdFinEquiv.sum_comp, Fintype.sum_prod_type]
  refine Finset.sum_congr rfl fun a _ => Finset.sum_congr rfl fun b _ => ?_
  congr 1
  apply Fin.ext
  show b.val + n * a.val = n * a.val + b.val
  exact Nat.add_comm _ _

/-! ## The accumulator between two restarts -/

theorem c0_eq : c0 = 0 := Ideal.ofBits_zero_f32

theorem accOf_succ (f : Fin 262144 → Fin 128 → EReal) (n : ℕ) :
    accOf f (n + 1) = if (n + 1) % 32 = 0 then c0 + tileSum f (n + 1) else accOf f n + tileSum f (n + 1) := rfl

/-- At a multiple of 32 the accumulator starts again from 0. -/
theorem accOf_restart (f : Fin 262144 → Fin 128 → EReal) (p : ℕ) :
    accOf f (32 * p) = c0 + tileSum f (32 * p) := by
  cases p with
  | zero => rfl
  | succ q =>
    have e : 32 * (q + 1) = (32 * q + 31) + 1 := by ring
    rw [e, accOf_succ, if_pos (by omega)]

/-- Up to 31 tiles after a restart the accumulator holds the tiles since the restart. -/
theorem accOf_run (f : Fin 262144 → Fin 128 → EReal) (p : ℕ) :
    ∀ i, i < 32 → accOf f (32 * p + i) = c0 + ∑ j ∈ Finset.range (i + 1), tileSum f (32 * p + j)
  | 0, _ => by
    rw [Finset.sum_range_one]
    exact accOf_restart f p
  | i + 1, hi => by
    have e : 32 * p + (i + 1) = (32 * p + i) + 1 := by ring
    rw [Finset.sum_range_succ, ← add_assoc c0, ← accOf_run f p i (by omega), e, accOf_succ, if_neg (by omega)]

/-! ## The 64 tiles are the 262144 re-laid rows -/

theorem tiles_all (f : Fin 262144 → Fin 128 → EReal) :
    ∑ n ∈ Finset.range 64, tileSum f n = ∑ r : Fin 262144, ∑ l : Fin 128, f r l := by
  rw [Finset.sum_range, sum_blocks 64 4096 262144 (by norm_num) (fun r => ∑ l : Fin 128, f r l)]
  refine Finset.sum_congr rfl fun a _ => ?_
  unfold tileSum
  refine Finset.sum_congr rfl fun row _ => ?_
  have ha := a.isLt
  have hr := row.isLt
  have e : tileRow a.val row = ⟨4096 * a.val + row.val, by omega⟩ :=
    Fin.ext (by show (4096 * a.val + row.val) % 262144 = 4096 * a.val + row.val; omega)
  rw [e]

/-! ## The 262144 re-laid rows of 128 lanes are the 524288 samples of 64 classes -/

theorem relaid_all (F : Fin 524288 → Fin 64 → EReal) :
    ∑ r : Fin 262144, ∑ l : Fin 128, F (rowOf r l) (colOf l) = ∑ b : Fin 524288, ∑ c : Fin 64, F b c := by
  rw [sum_blocks 262144 2 524288 (by norm_num) (fun b => ∑ c : Fin 64, F b c)]
  refine Finset.sum_congr rfl fun r _ => ?_
  rw [sum_blocks 2 64 128 (by norm_num) (fun l => F (rowOf r l) (colOf l))]
  refine Finset.sum_congr rfl fun a _ => Finset.sum_congr rfl fun c _ => ?_
  have hr := r.isLt
  have ha := a.isLt
  have hc := c.isLt
  have e1 : rowOf r ⟨64 * a.val + c.val, by omega⟩ = ⟨2 * r.val + a.val, by omega⟩ :=
    Fin.ext (by show 2 * r.val + (64 * a.val + c.val) / 64 = 2 * r.val + a.val; omega)
  have e2 : colOf ⟨64 * a.val + c.val, by omega⟩ = c :=
    Fin.ext (by show (64 * a.val + c.val) % 64 = c.val; omega)
  show F (rowOf r ⟨64 * a.val + c.val, _⟩) (colOf ⟨64 * a.val + c.val, _⟩) = F ⟨2 * r.val + a.val, _⟩ c
  rw [e1, e2]

/-! ## The two halves together -/

/-- The two accumulators, read after tiles 31 and 63, add up to the sum of every sample's every class from 0. -/
theorem accOf_halves (f : Fin 262144 → Fin 128 → EReal) (F : Fin 524288 → Fin 64 → EReal)
    (h : ∀ r l, f r l = F (rowOf r l) (colOf l)) :
    accOf f 31 + accOf f 63 = c0 + ∑ b : Fin 524288, ∑ c : Fin 64, F b c := by
  have h0 : accOf f 31 = c0 + ∑ j ∈ Finset.range 32, tileSum f j := by
    have := accOf_run f 0 31 (by norm_num)
    simpa only [Nat.mul_zero, Nat.zero_add] using this
  have h1 : accOf f 63 = c0 + ∑ j ∈ Finset.range 32, tileSum f (32 + j) := by
    have := accOf_run f 1 31 (by norm_num)
    simpa only [Nat.mul_one] using this
  rw [h0, h1, c0_eq, zero_add, zero_add, zero_add,
    ← Finset.sum_range_add (fun j => tileSum f j) 32 32, tiles_all]
  simp only [h]
  exact relaid_all F

end Cert.Focal

end
-- ==== Proof.Total.lean ====
/-
  The two arrangements compute one number.

  For finite logits, labels that are 0 or 1 and group words in 0..7: element by element the kernel's loss is the
  reference's (the closed form of pt agrees with exp (-bce) on such labels, and a power with exponent 2 is a square),
  the kernel's mask is the reference's (its label sum against the block-diagonal table is the sum over the class's
  group, and its group-0 flag is the 0/1 number of the reference's bit), and the kernel's tile-by-tile accumulation
  into two halves adds every element exactly once.
-/
import proofs.«419825_j37220186587138_3_alg».proof.Proof.ElemLaw
import proofs.«419825_j37220186587138_3_alg».proof.Proof.GroupLaw
import proofs.«419825_j37220186587138_3_alg».proof.Proof.SumLaw

noncomputable section

namespace Cert.Focal

open Idealize.ShloMosaic Idealize.ShloMosaic.ValueIdx
open scoped BigOperators

/-- Element by element the kernel's summand at a re-laid index is the reference's at the sample and class it holds. -/
theorem kTerm_eq_rTerm (x t : Arr) (g : Grp)
    (hx : ∀ i, ∃ r : ℝ, x i = (r : EReal)) (ht : ∀ i, t i = 0 ∨ t i = 1)
    (hg : ∀ c : Fin 64, 0 ≤ (g (ix1 c)).toInt ∧ (g (ix1 c)).toInt < 8) (r : Fin 262144) (l : Fin 128) :
    kTerm x t g r l = rTerm x t g (rowOf r l) (colOf l) := by
  unfold kTerm rTerm relaid g0K
  obtain ⟨v, hv⟩ := hx (ix2 (rowOf r l) (colOf l))
  rw [hv, kLoss_eq_rLoss v _ (ht _), pcsK_eq_pcs t g hg r l, kMask_eq_rMask]

/-- The kernel's value is the reference's. -/
theorem kTotal_eq_rTotal (x t : Arr) (g : Grp)
    (hx : ∀ i, ∃ r : ℝ, x i = (r : EReal)) (ht : ∀ i, t i = 0 ∨ t i = 1)
    (hg : ∀ c : Fin 64, 0 ≤ (g (ix1 c)).toInt ∧ (g (ix1 c)).toInt < 8) :
    kTotal x t g = rTotal x t g := by
  unfold kTotal rTotal
  rw [accOf_halves (kTerm x t g) (rTerm x t g) (kTerm_eq_rTerm x t g hx ht hg)]

end Cert.Focal

end
-- ==== Proof.lean ====
/-
  The claim: the masked focal loss averaged by the kernel equals the one averaged by the reference.

  Under the precondition (finite logits and labels, labels 0 or 1, group words in 0..7) the idealized kernel and the
  idealized reference, run on the same three inputs, end with the same extended real.  The kernel's result is read
  off its run point by point: a carried accumulator of tile sums per half of the re-laid rows, the two halves added
  and divided by the number of elements.  The reference's result is its one composed term: the sum of all summands
  over the same count.  Element by element the two summands are one number, and the kernel's tiles add every element
  once.  The three frames are the two kernels' generated frame runs and the reference's run with its result dropped;
  the idealization rewrote nothing, so there is nothing to preserve.
-/
import proofs.«419825_j37220186587138_3_alg».proof.Defs
import proofs.«419825_j37220186587138_3_alg».proof.Proof.Gen.Kernel
import proofs.«419825_j37220186587138_3_alg».proof.Proof.Gen.Kernel.Frame
import proofs.«419825_j37220186587138_3_alg».proof.Proof.Gen.KernelIdeal
import proofs.«419825_j37220186587138_3_alg».proof.Proof.Gen.KernelIdeal.Frame
import proofs.«419825_j37220186587138_3_alg».proof.Proof.Gen.ReferenceIdeal
import proofs.«419825_j37220186587138_3_alg».proof.Proof.Gen.Pre_finite_inputs
import proofs.«419825_j37220186587138_3_alg».proof.Proof.KRun
import proofs.«419825_j37220186587138_3_alg».proof.Proof.RefRun
import proofs.«419825_j37220186587138_3_alg».proof.Proof.RefRead
import proofs.«419825_j37220186587138_3_alg».proof.Proof.PreRead
import proofs.«419825_j37220186587138_3_alg».proof.Proof.Total
import Idealize.ShloMosaic.Adequacy
import Idealize.ShloMosaic.Init

noncomputable section

namespace Cert.Proof

open Idealize.ShloMosaic Idealize.ShloMosaic.TcCoe Idealize.SL.Sem

/-- The word-level kernel runs and leaves its inputs alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its inputs alone: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- Both idealized programs end with the kernel-side total: the kernel by its run, the reference because its composed
    term is the reference-side total, which the precondition makes the same number. -/
theorem algebraic : Cert.algebraic_KernelIdeal_ReferenceIdeal := by
  intro m ρ m' ρ' hpre hagree
  refine ⟨fun c => fun _ => Cert.Focal.kTotal (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ValueRun.run m ρ, ?_⟩
  refine (θ_run Cert.ReferenceIdeal.defs _ _).mono (fun _ h c => ⟨(h c).1.trans ?_, (h c).2⟩)
    (Cert.ReferenceIdeal.HandRun.run (F := Ideal) m' ρ')
  obtain ⟨hx, ht, hg⟩ := Cert.Focal.of_pre _ _ _ (hpre c)
  rw [(hagree c).1, (hagree c).2.1, (hagree c).2.2, Cert.ReferenceIdeal.HandValue.refVal_eq _ _ _ hg]
  funext _
  exact (Cert.Focal.kTotal_eq_rTotal _ _ _ hx ht hg).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
